-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v90) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x3 : Shape := ⟨2, ![100000, 3]⟩
abbrev S2x3200000 : Shape := ⟨2, ![2, 3200000]⟩
abbrev S3x16 : Shape := ⟨2, ![3, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x3 : S_.BroadcastsInDim S100000x3 (![] : Fin 0 → Fin S100000x3.rank)
  reducesTo_S100000x3_S_d0_1 : S100000x3.ReducesTo [0, 1] S_
  h_S_ : 0 < S_.numel
  bcast_S_S3x16 : S_.BroadcastsInDim S3x16 (![] : Fin 0 → Fin S3x16.rank)
  reducesTo_S3x16_S_d0_1 : S3x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x3 .f32) (main_arg1 : IVec S2x3200000 32) (main_arg2 : FVec F S3x16 .f32) (main_arg3 : FVec F S16 .f32) (main_arg4 : FVec F S16x2 .f32) (main_arg5 : FVec F S2 .f32) : IVec S_ 1 :=
  let main_v0 : FVec F S100000x3 .f32 := Host.absf main_arg0
  let main_cst : FVec F S_ .f32 := constant S_ .f32 0x7F800000#32
  let main_v1 : FVec F S100000x3 .f32 := broadcastInDim S100000x3 ![] bcast_S_S100000x3 main_cst
  let main_v2 : IVec S100000x3 1 := cmpf .olt main_v0 main_v1
  let main_c : IVec S_ 1 := constantI S_ 1 1#1
  let main_v3 : IVec S_ 1 := (fun x v => Host.reduce IntOp.andi x v reducesTo_S100000x3_S_d0_1 h_S_) main_v2 main_c
  let main_v4 : FVec F S3x16 .f32 := Host.absf main_arg2
  let main_cst_0 : FVec F S_ .f32 := constant S_ .f32 0x7F800000#32
  let main_v5 : FVec F S3x16 .f32 := broadcastInDim S3x16 ![] bcast_S_S3x16 main_cst_0
  let main_v6 : IVec S3x16 1 := cmpf .olt main_v4 main_v5
  let main_c_1 : IVec S_ 1 := constantI S_ 1 1#1
  let main_v7 : IVec S_ 1 := (fun x v => Host.reduce IntOp.andi x v reducesTo_S3x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x3 : Shape := ⟨2, ![100000, 3]⟩
abbrev S2x3200000 : Shape := ⟨2, ![2, 3200000]⟩
abbrev S3x16 : Shape := ⟨2, ![3, 16]⟩
abbrev S16 : Shape := ⟨1, ![16]⟩
abbrev S16x2 : Shape := ⟨2, ![16, 2]⟩
abbrev S2 : Shape := ⟨1, ![2]⟩
abbrev S1x3200000 : Shape := ⟨2, ![1, 3200000]⟩
abbrev S3200000 : Shape := ⟨1, ![3200000]⟩
abbrev S100000 : Shape := ⟨1, ![100000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S5000x3 : Shape := ⟨2, ![5000, 3]⟩
abbrev S5000x16 : Shape := ⟨2, ![5000, 16]⟩
abbrev S3300000x16 : Shape := ⟨2, ![3300000, 16]⟩
abbrev S6000x16 : Shape := ⟨2, ![6000, 16]⟩
abbrev S6000x1 : Shape := ⟨2, ![6000, 1]⟩
abbrev S1x16 : Shape := ⟨2, ![1, 16]⟩
abbrev S100000x2 : Shape := ⟨2, ![100000, 2]⟩
abbrev S5000x2 : Shape := ⟨2, ![5000, 2]⟩
abbrev S3300000x2 : Shape := ⟨2, ![3300000, 2]⟩
abbrev S6000x2 : Shape := ⟨2, ![6000, 2]⟩
abbrev S1x2 : Shape := ⟨2, ![1, 2]⟩
abbrev S5000 : Shape := ⟨1, ![5000]⟩
abbrev S5000x1 : Shape := ⟨2, ![5000, 1]⟩

abbrev nBuf : Space → Nat
  | .hbm => 83
  | .vmem => 32
  | .smem => 0
  | _ => 0

abbrev bufTy : (tb : Table) → Fin (tcTables nBuf tb) → BufTy
  | .hbm, ⟨0, _⟩ => ⟨S100000x3, .f32⟩
  | .hbm, ⟨1, _⟩ => ⟨S2x3200000, .i32⟩
  | .hbm, ⟨2, _⟩ => ⟨S3x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S1x3200000, .i32⟩
  | .hbm, ⟨7, _⟩ => ⟨S3200000, .i32⟩
  | .hbm, ⟨8, _⟩ => ⟨S1x3200000, .i32⟩
  | .hbm, ⟨9, _⟩ => ⟨S3200000, .i32⟩
  | .hbm, ⟨10, _⟩ => ⟨S100000, .i32⟩
  | .hbm, ⟨11, _⟩ => ⟨S3300000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S_, .f32⟩
  | .hbm, ⟨27, _⟩ => ⟨S100000, .f32⟩
  | .hbm, ⟨28, _⟩ => ⟨S100000, .f32⟩
  | .hbm, ⟨29, _⟩ => ⟨S_, .i32⟩
  | .hbm, ⟨30, _⟩ => ⟨S3300000, .i32⟩
  | .hbm, ⟨31, _⟩ => ⟨S3300000, .i1⟩
  | .hbm, ⟨32, _⟩ => ⟨S_, .i32⟩
  | .hbm, ⟨33, _⟩ => ⟨S3300000, .i32⟩
  | .hbm, ⟨34, _⟩ => ⟨S3300000, .i32⟩
  | .hbm, ⟨35, _⟩ => ⟨S3300000, .i32⟩
  | .hbm, ⟨36, _⟩ => ⟨S3300000x1, .i32⟩
  | .hbm, ⟨37, _⟩ => ⟨S3300000, .f32⟩
  | .hbm, ⟨38, _⟩ => ⟨S_, .i32⟩
  | .hbm, ⟨39, _⟩ => ⟨S3300000, .i32⟩
  | .hbm, ⟨40, _⟩ => ⟨S3300000, .i1⟩
  | .hbm, ⟨41, _⟩ => ⟨S_, .i32⟩
  | .hbm, ⟨42, _⟩ => ⟨S3300000, .i32⟩
  | .hbm, ⟨43, _⟩ => ⟨S3300000, .i32⟩
  | .hbm, ⟨44, _⟩ => ⟨S3300000, .i32⟩
  | .hbm, ⟨45, _⟩ => ⟨S3300000x1, .i32⟩
  | .hbm, ⟨46, _⟩ => ⟨S3300000, .f32⟩
  | .hbm, ⟨47, _⟩ => ⟨S3300000, .f32⟩
  | .hbm, ⟨48, _⟩ => ⟨S3300000x1, .f32⟩
  | .hbm, ⟨49, _⟩ => ⟨S100000x16, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x16, .f32⟩
  | .hbm, ⟨59, _⟩ => ⟨S3300000x16, .f32⟩
  | .hbm, ⟨60, _⟩ => ⟨S_, .f32⟩
  | .hbm, ⟨61, _⟩ => ⟨S100000x16, .f32⟩
  | .hbm, ⟨62, _⟩ => ⟨S3300000x1, .i32⟩
  | .hbm, ⟨63, _⟩ => ⟨S100000x16, .f32⟩
  | .hbm, ⟨64, _⟩ => ⟨S1x16, .f32⟩
  | .hbm, ⟨65, _⟩ => ⟨S100000x16, .f32⟩
  | .hbm, ⟨66, _⟩ => ⟨S100000x2, .f32⟩
  | .hbm, ⟨67, _⟩ => ⟨S_, .i32⟩
  | .hbm, ⟨68, _⟩ => ⟨S3300000, .i32⟩
  | .hbm, ⟨69, _⟩ => ⟨S3300000, .i1⟩
  | .hbm, ⟨70, _⟩ => ⟨S_, .i32⟩
  | .hbm, ⟨71, _⟩ => ⟨S3300000, .i32⟩
  | .hbm, ⟨72, _⟩ => ⟨S3300000, .i32⟩
  | .hbm, ⟨73, _⟩ => ⟨S3300000, .i32⟩
  | .hbm, ⟨74, _⟩ => ⟨S3300000x1, .i32⟩
  | .hbm, ⟨75, _⟩ => ⟨S3300000x2, .f32⟩
  | .hbm, ⟨76, _⟩ => ⟨S3300000x2, .f32⟩
  | .hbm, ⟨77, _⟩ => ⟨S_, .f32⟩
  | .hbm, ⟨78, _⟩ => ⟨S100000x2, .f32⟩
  | .hbm, ⟨79, _⟩ => ⟨S3300000x1, .i32⟩
  | .hbm, ⟨80, _⟩ => ⟨S100000x2, .f32⟩
  | .hbm, ⟨81, _⟩ => ⟨S1x2, .f32⟩
  | .hbm, ⟨82, _⟩ => ⟨S100000x2, .f32⟩
  | .local _ .vmem, ⟨0, _⟩ => ⟨S5000x3, .f32⟩
  | .local _ .vmem, ⟨1, _⟩ => ⟨S5000x3, .f32⟩
  | .local _ .vmem, ⟨2, _⟩ => ⟨S3x16, .f32⟩
  | .local _ .vmem, ⟨3, _⟩ => ⟨S5000x16, .f32⟩
  | .local _ .vmem, ⟨4, _⟩ => ⟨S5000x16, .f32⟩
  | .local _ .vmem, ⟨5, _⟩ => ⟨S6000x16, .f32⟩
  | .local _ .vmem, ⟨6, _⟩ => ⟨S6000x16, .f32⟩
  | .local _ .vmem, ⟨7, _⟩ => ⟨S6000x1, .f32⟩
  | .local _ .vmem, ⟨8, _⟩ => ⟨S6000x1, .f32⟩
  | .local _ .vmem, ⟨9, _⟩ => ⟨S6000x16, .f32⟩
  | .local _ .vmem, ⟨10, _⟩ => ⟨S6000x16, .f32⟩
  | .local _ .vmem, ⟨11, _⟩ => ⟨S5000x16, .f32⟩
  | .local _ .vmem, ⟨12, _⟩ => ⟨S5000x16, .f32⟩
  | .local _ .vmem, ⟨13, _⟩ => ⟨S1x16, .f32⟩
  | .local _ .vmem, ⟨14, _⟩ => ⟨S5000x16, .f32⟩
  | .local _ .vmem, ⟨15, _⟩ => ⟨S5000x16, .f32⟩
  | .local _ .vmem, ⟨16, _⟩ => ⟨S5000x16, .f32⟩
  | .local _ .vmem, ⟨17, _⟩ => ⟨S5000x16, .f32⟩
  | .local _ .vmem, ⟨18, _⟩ => ⟨S16x2, .f32⟩
  | .local _ .vmem, ⟨19, _⟩ => ⟨S5000x2, .f32⟩
  | .local _ .vmem, ⟨20, _⟩ => ⟨S5000x2, .f32⟩
  | .local _ .vmem, ⟨21, _⟩ => ⟨S6000x2, .f32⟩
  | .local _ .vmem, ⟨22, _⟩ => ⟨S6000x2, .f32⟩
  | .local _ .vmem, ⟨23, _⟩ => ⟨S6000x1, .f32⟩
  | .local _ .vmem, ⟨24, _⟩ => ⟨S6000x1, .f32⟩
  | .local _ .vmem, ⟨25, _⟩ => ⟨S6000x2, .f32⟩
  | .local _ .vmem, ⟨26, _⟩ => ⟨S6000x2, .f32⟩
  | .local _ .vmem, ⟨27, _⟩ => ⟨S5000x2, .f32⟩
  | .local _ .vmem, ⟨28, _⟩ => ⟨S5000x2, .f32⟩
  | .local _ .vmem, ⟨29, _⟩ => ⟨S1x2, .f32⟩
  | .local _ .vmem, ⟨30, _⟩ => ⟨S5000x2, .f32⟩
  | .local _ .vmem, ⟨31, _⟩ => ⟨S5000x2, .f32⟩
  | _, _ => ⟨S100000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_cst_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_c_10 : Ref sig .tc := ⟨.hbm, 67, rfl⟩
abbrev main_v47 : Ref sig .tc := ⟨.hbm, 68, rfl⟩
abbrev main_v48 : Ref sig .tc := ⟨.hbm, 69, rfl⟩
abbrev main_c_11 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_cst_12 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_v59 : Ref sig .tc := ⟨.hbm, 82, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg2_1 : Ref sig .tc := ⟨.vmem, 15, rfl⟩
abbrev cc3_stg0_0 : Ref sig .tc := ⟨.vmem, 16, rfl⟩
abbrev cc3_stg0_1 : Ref sig .tc := ⟨.vmem, 17, rfl⟩
abbrev cc3_stg1_0 : Ref sig .tc := ⟨.vmem, 18, rfl⟩
abbrev cc3_stg2_0 : Ref sig .tc := ⟨.vmem, 19, rfl⟩
abbrev cc3_stg2_1 : Ref sig .tc := ⟨.vmem, 20, rfl⟩
abbrev cc4_stg0_0 : Ref sig .tc := ⟨.vmem, 21, rfl⟩
abbrev cc4_stg0_1 : Ref sig .tc := ⟨.vmem, 22, rfl⟩
abbrev cc4_stg1_0 : Ref sig .tc := ⟨.vmem, 23, rfl⟩
abbrev cc4_stg1_1 : Ref sig .tc := ⟨.vmem, 24, rfl⟩
abbrev cc4_stg2_0 : Ref sig .tc := ⟨.vmem, 25, rfl⟩
abbrev cc4_stg2_1 : Ref sig .tc := ⟨.vmem, 26, rfl⟩
abbrev cc5_stg0_0 : Ref sig .tc := ⟨.vmem, 27, rfl⟩
abbrev cc5_stg0_1 : Ref sig .tc := ⟨.vmem, 28, rfl⟩
abbrev cc5_stg1_0 : Ref sig .tc := ⟨.vmem, 29, rfl⟩
abbrev cc5_stg2_0 : Ref sig .tc := ⟨.vmem, 30, rfl⟩
abbrev cc5_stg2_1 : Ref sig .tc := ⟨.vmem, 31, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem2_1 : DmaSem sig := 15
abbrev cc3_sem0_0 : DmaSem sig := 16
abbrev cc3_sem0_1 : DmaSem sig := 17
abbrev cc3_sem1_0 : DmaSem sig := 18
abbrev cc3_sem2_0 : DmaSem sig := 19
abbrev cc3_sem2_1 : DmaSem sig := 20
abbrev cc4_sem0_0 : DmaSem sig := 21
abbrev cc4_sem0_1 : DmaSem sig := 22
abbrev cc4_sem1_0 : DmaSem sig := 23
abbrev cc4_sem1_1 : DmaSem sig := 24
abbrev cc4_sem2_0 : DmaSem sig := 25
abbrev cc4_sem2_1 : DmaSem sig := 26
abbrev cc5_sem0_0 : DmaSem sig := 27
abbrev cc5_sem0_1 : DmaSem sig := 28
abbrev cc5_sem1_0 : DmaSem sig := 29
abbrev cc5_sem2_0 : DmaSem sig := 30
abbrev cc5_sem2_1 : DmaSem sig := 31

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S3x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![550], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S6000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S6000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S6000x16 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x16 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x16 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x16 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S16x2 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x2 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![550], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S6000x2 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S6000x1 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 2 → Memref sig .tc .vmem S6000x2 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S5000x2 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x2 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S5000x2 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

class Facts₀ : Prop where
  slices_S2x3200000_S1x3200000_0_0 : S2x3200000.Slices ![0, 0] S1x3200000
  shapeCasts_S1x3200000_S3200000 : S1x3200000.ShapeCasts S3200000
  slices_S2x3200000_S1x3200000_1_0 : S2x3200000.Slices ![1, 0] S1x3200000
  concatenates_S3200000_S100000_S3300000_d0 : Shape.Concatenates [S3200000, S100000] S3300000 0
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  shapeCasts_S3300000_S3300000x1 : S3300000.ShapeCasts S3300000x1
  inb_S5000x3_S5000x3_0_0 : ∀ a, (![0, 0] : Fin 2 → Nat) a + S5000x3.size a ≤ S5000x3.size a
  h_S5000x3 : 0 < S5000x3.numel
  bitsLt_bf16_f32 : FTy.bits .bf16 < FTy.bits .f32
  inb_S3x16_S3x16_0_0 : ∀ a, (![0, 0] : Fin 2 → Nat) a + S3x16.size a ≤ S3x16.size a
  h_S3x16 : 0 < S3x16.numel
  inb_S5000x16_S5000x16_0_0 : ∀ a, (![0, 0] : Fin 2 → Nat) a + S5000x16.size a ≤ S5000x16.size a
  h_S5000x16 : 0 < S5000x16.numel
  inb_S6000x16_S6000x16_0_0 : ∀ a, (![0, 0] : Fin 2 → Nat) a + S6000x16.size a ≤ S6000x16.size a
  h_S6000x16 : 0 < S6000x16.numel
  shapeCasts_S6000x16_S6000x16 : S6000x16.ShapeCasts S6000x16
  inb_S6000x1_S6000x1_0_0 : ∀ a, (![0, 0] : Fin 2 → Nat) a + S6000x1.size a ≤ S6000x1.size a
  h_S6000x1 : 0 < S6000x1.numel
  shapeCasts_S6000x1_S6000x1 : S6000x1.ShapeCasts S6000x1
  broadcasts_S6000x1_S6000x16 : S6000x1.Broadcasts S6000x16
  bcast_S_S100000x16 : S_.BroadcastsInDim S100000x16 (![] : Fin 0 → Fin S100000x16.rank)
  shapeCasts_S16_S1x16 : S16.ShapeCasts S1x16
  shapeCasts_S5000x16_S5000x16 : S5000x16.ShapeCasts S5000x16
  inb_S1x16_S1x16_0_0 : ∀ a, (![0, 0] : Fin 2 → Nat) a + S1x16.size a ≤ S1x16.size a
  h_S1x16 : 0 < S1x16.numel
  shapeCasts_S1x16_S1x16 : S1x16.ShapeCasts S1x16
  broadcasts_S1x16_S5000x16 : S1x16.Broadcasts S5000x16
  inb_S16x2_S16x2_0_0 : ∀ a, (![0, 0] : Fin 2 → Nat) a + S16x2.size a ≤ S16x2.size a
  h_S16x2 : 0 < S16x2.numel
  inb_S5000x2_S5000x2_0_0 : ∀ a, (![0, 0] : Fin 2 → Nat) a + S5000x2.size a ≤ S5000x2.size a
  h_S5000x2 : 0 < S5000x2.numel
  inb_S6000x2_S6000x2_0_0 : ∀ a, (![0, 0] : Fin 2 → Nat) a + S6000x2.size a ≤ S6000x2.size a
  h_S6000x2 : 0 < S6000x2.numel
  shapeCasts_S6000x2_S6000x2 : S6000x2.ShapeCasts S6000x2
  broadcasts_S6000x1_S6000x2 : S6000x1.Broadcasts S6000x2
  bcast_S_S100000x2 : S_.BroadcastsInDim S100000x2 (![] : Fin 0 → Fin S100000x2.rank)
  shapeCasts_S2_S1x2 : S2.ShapeCasts S1x2
  shapeCasts_S5000x2_S5000x2 : S5000x2.ShapeCasts S5000x2
  inb_S1x2_S1x2_0_0 : ∀ a, (![0, 0] : Fin 2 → Nat) a + S1x2.size a ≤ S1x2.size a
  h_S1x2 : 0 < S1x2.numel
  shapeCasts_S1x2_S1x2 : S1x2.ShapeCasts S1x2
  broadcasts_S1x2_S5000x2 : S1x2.Broadcasts S5000x2
  reduces_S5000x2_S5000 : S5000x2.Reduces [1] S5000
  shapeCasts_S5000_S5000x1 : S5000.ShapeCasts S5000x1
  broadcasts_S5000x1_S5000x2 : S5000x1.Broadcasts S5000x2
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x3_S3x16_S5000x16_1_0_0_1_n_n_wf : DotDims.WF S5000x3 S3x16 S5000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S5000x16_S16x2_S5000x2_1_0_0_1_n_n_wf : DotDims.WF S5000x16 S16x2 S5000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x3.size a ≤ S100000x3.size a
  hwx0_0 : ∀ i : grid0.Coords, EltTy.bits .f32 = 32 ∨ (Rect.block (s := S100000x3) S5000x3.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S3x16.size a ≤ S3x16.size a
  hwx0_1 : ∀ i : grid0.Coords, EltTy.bits .f32 = 32 ∨ (Rect.block (s := S3x16) S3x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x16.size a ≤ S100000x16.size a
  hwx0_2 : ∀ i : grid0.Coords, EltTy.bits .f32 = 32 ∨ (Rect.block (s := S100000x16) S5000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S6000x16.size a ≤ S3300000x16.size a
  hwx1_0 : ∀ i : grid1.Coords, EltTy.bits .f32 = 32 ∨ (Rect.block (s := S3300000x16) S6000x16.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S6000x1.size a ≤ S3300000x1.size a
  hwx1_1 : ∀ i : grid1.Coords, EltTy.bits .f32 = 32 ∨ (Rect.block (s := S3300000x1) S6000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S6000x16.size a ≤ S3300000x16.size a
  hwx1_2 : ∀ i : grid1.Coords, EltTy.bits .f32 = 32 ∨ (Rect.block (s := S3300000x16) S6000x16.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x16.size a ≤ S100000x16.size a
  hwx2_0 : ∀ i : grid2.Coords, EltTy.bits .f32 = 32 ∨ (Rect.block (s := S100000x16) S5000x16.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x16.size a ≤ S1x16.size a
  hwx2_1 : ∀ i : grid2.Coords, EltTy.bits .f32 = 32 ∨ (Rect.block (s := S1x16) S1x16.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x16.size a ≤ S100000x16.size a
  hwx2_2 : ∀ i : grid2.Coords, EltTy.bits .f32 = 32 ∨ (Rect.block (s := S100000x16) S5000x16.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x16.size a ≤ S100000x16.size a
  hwx3_0 : ∀ i : grid3.Coords, EltTy.bits .f32 = 32 ∨ (Rect.block (s := S100000x16) S5000x16.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S16x2.size a ≤ S16x2.size a
  hwx3_1 : ∀ i : grid3.Coords, EltTy.bits .f32 = 32 ∨ (Rect.block (s := S16x2) S16x2.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x2.size a ≤ S100000x2.size a
  hwx3_2 : ∀ i : grid3.Coords, EltTy.bits .f32 = 32 ∨ (Rect.block (s := S100000x2) S5000x2.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S6000x2.size a ≤ S3300000x2.size a
  hwx4_0 : ∀ i : grid4.Coords, EltTy.bits .f32 = 32 ∨ (Rect.block (s := S3300000x2) S6000x2.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S6000x1.size a ≤ S3300000x1.size a
  hwx4_1 : ∀ i : grid4.Coords, EltTy.bits .f32 = 32 ∨ (Rect.block (s := S3300000x1) S6000x1.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S6000x2.size a ≤ S3300000x2.size a
  hwx4_2 : ∀ i : grid4.Coords, EltTy.bits .f32 = 32 ∨ (Rect.block (s := S3300000x2) S6000x2.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x2.size a ≤ S100000x2.size a
  hwx5_0 : ∀ i : grid5.Coords, EltTy.bits .f32 = 32 ∨ (Rect.block (s := S100000x2) S5000x2.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x2.size a ≤ S1x2.size a
  hwx5_1 : ∀ i : grid5.Coords, EltTy.bits .f32 = 32 ∨ (Rect.block (s := S1x2) S1x2.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S5000x2.size a ≤ S100000x2.size a
  hwx5_2 : ∀ i : grid5.Coords, EltTy.bits .f32 = 32 ∨ (Rect.block (s := S100000x2) S5000x2.size (cc5_transform_2 i) (hinb5_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x3_S3x16_S5000x16_1_0_0_1_n_n : DotDims S5000x3 S3x16 S5000x16 where
  lhsContracting := [1]
  rhsContracting := [0]
  lhsNonContracting := [0]
  rhsNonContracting := [1]
  lhsBatch := []
  rhsBatch := []
  wf := dot_S5000x3_S3x16_S5000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S5000x16_S16x2_S5000x2_1_0_0_1_n_n : DotDims S5000x16 S16x2 S5000x2 where
  lhsContracting := [1]
  rhsContracting := [0]
  lhsNonContracting := [0]
  rhsNonContracting := [1]
  lhsBatch := []
  rhsBatch := []
  wf := dot_S5000x16_S16x2_S5000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

abbrev win0_0 : Pipeline.Window sig grid0 :=
  Pipeline.Window.ofSpec (Memref.whole main_arg0) S5000x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S3x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v39) S6000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v31) S6000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v40) S6000x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v43) S5000x16.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S1x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v45) S5000x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v45) S5000x16.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg4) S16x2.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v46) S5000x2.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v53) S6000x2.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v31) S6000x1.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v54) S6000x2.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v57) S5000x2.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v58) S1x2.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v59) S5000x2.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

class Facts : Prop extends Facts₀ where

variable [Facts]
-- ==== ReferenceIdeal.lean ====
abbrev S100000x3 : Shape := ⟨2, ![100000, 3]⟩
abbrev S2x3200000 : Shape := ⟨2, ![2, 3200000]⟩
abbrev S3x16 : Shape := ⟨2, ![3, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S100000x16 : Shape := ⟨2, ![100000, 16]⟩
abbrev S3300000x16 : Shape := ⟨2, ![3300000, 16]⟩
abbrev S1x16 : Shape := ⟨2, ![1, 16]⟩
abbrev S100000x2 : Shape := ⟨2, ![100000, 2]⟩
abbrev S3300000x2 : Shape := ⟨2, ![3300000, 2]⟩
abbrev S1x2 : Shape := ⟨2, ![1, 2]⟩
abbrev S100000x1 : Shape := ⟨2, ![100000, 1]⟩

abbrev nBuf : Space → Nat
  | .hbm => 141
  | .vmem => 0
  | .smem => 0
  | _ => 0

abbrev hbmTy0_0 (i : Nat) : BufTy := match i % 128 with
  | 0 => ⟨S100000x3, .f32⟩
  | 1 => ⟨S2x3200000, .i32⟩
  | 2 => ⟨S3x16, .f32⟩
  | 3 => ⟨S16, .f32⟩
  | 4 => ⟨S16x2, .f32⟩
  | 5 => ⟨S2, .f32⟩
  | 6 => ⟨S100000, .i32⟩
  | 7 => ⟨S1x3200000, .i32⟩
  | 8 => ⟨S3200000, .i32⟩
  | 9 => ⟨S3300000, .i32⟩
  | 10 => ⟨S1x3200000, .i32⟩
  | 11 => ⟨S3200000, .i32⟩
  | 12 => ⟨S3300000, .i32⟩
  | 13 => ⟨S_, .f32⟩
  | 14 => ⟨S3300000, .f32⟩
  | 15 => ⟨S_, .f32⟩
  | 16 => ⟨S100000, .f32⟩
  | 17 => ⟨S3300000x1, .i32⟩
  | 18 => ⟨S100000, .f32⟩
  | 19 => ⟨S_, .f32⟩
  | 20 => ⟨S100000, .f32⟩
  | 21 => ⟨S100000, .i1⟩
  | 22 => ⟨S_, .f32⟩
  | 23 => ⟨S100000, .f32⟩
  | 24 => ⟨S100000, .f32⟩
  | 25 => ⟨S_, .f32⟩
  | 26 => ⟨S_, .f32⟩
  | 27 => ⟨S100000, .f32⟩
  | 28 => ⟨S100000, .f32⟩
  | 29 => ⟨S_, .i32⟩
  | 30 => ⟨S3300000, .i32⟩
  | 31 => ⟨S3300000, .i1⟩
  | 32 => ⟨S_, .i32⟩
  | 33 => ⟨S3300000, .i32⟩
  | 34 => ⟨S3300000, .i32⟩
  | 35 => ⟨S3300000, .i32⟩
  | 36 => ⟨S3300000x1, .i32⟩
  | 37 => ⟨S3300000, .f32⟩
  | 38 => ⟨S_, .i32⟩
  | 39 => ⟨S3300000, .i32⟩
  | 40 => ⟨S3300000, .i1⟩
  | 41 => ⟨S_, .i32⟩
  | 42 => ⟨S3300000, .i32⟩
  | 43 => ⟨S3300000, .i32⟩
  | 44 => ⟨S3300000, .i32⟩
  | 45 => ⟨S3300000x1, .i32⟩
  | 46 => ⟨S3300000, .f32⟩
  | 47 => ⟨S3300000, .f32⟩
  | 48 => ⟨S100000x16, .f32⟩
  | 49 => ⟨S_, .i32⟩
  | 50 => ⟨S3300000, .i32⟩
  | 51 => ⟨S3300000, .i1⟩
  | 52 => ⟨S_, .i32⟩
  | 53 => ⟨S3300000, .i32⟩
  | 54 => ⟨S3300000, .i32⟩
  | 55 => ⟨S3300000, .i32⟩
  | 56 => ⟨S3300000x1, .i32⟩
  | 57 => ⟨S3300000x16, .f32⟩
  | 58 => ⟨S3300000x1, .f32⟩
  | 59 => ⟨S3300000x16, .f32⟩
  | 60 => ⟨S3300000x16, .f32⟩
  | 61 => ⟨S_, .f32⟩
  | 62 => ⟨S100000x16, .f32⟩
  | 63 => ⟨S3300000x1, .i32⟩
  | 64 => ⟨S100000x16, .f32⟩
  | 65 => ⟨S1x16, .f32⟩
  | 66 => ⟨S100000x16, .f32⟩
  | 67 => ⟨S100000x16, .f32⟩
  | 68 => ⟨S_, .f32⟩
  | 69 => ⟨S100000x16, .f32⟩
  | 70 => ⟨S100000x16, .f32⟩
  | 71 => ⟨S_, .f32⟩
  | 72 => ⟨S3300000, .f32⟩
  | 73 => ⟨S_, .f32⟩
  | 74 => ⟨S100000, .f32⟩
  | 75 => ⟨S3300000x1, .i32⟩
  | 76 => ⟨S100000, .f32⟩
  | 77 => ⟨S_, .f32⟩
  | 78 => ⟨S100000, .f32⟩
  | 79 => ⟨S100000, .i1⟩
  | 80 => ⟨S_, .f32⟩
  | 81 => ⟨S100000, .f32⟩
  | 82 => ⟨S100000, .f32⟩
  | 83 => ⟨S_, .f32⟩
  | 84 => ⟨S_, .f32⟩
  | 85 => ⟨S100000, .f32⟩
  | 86 => ⟨S100000, .f32⟩
  | 87 => ⟨S_, .i32⟩
  | 88 => ⟨S3300000, .i32⟩
  | 89 => ⟨S3300000, .i1⟩
  | 90 => ⟨S_, .i32⟩
  | 91 => ⟨S3300000, .i32⟩
  | 92 => ⟨S3300000, .i32⟩
  | 93 => ⟨S3300000, .i32⟩
  | 94 => ⟨S3300000x1, .i32⟩
  | 95 => ⟨S3300000, .f32⟩
  | 96 => ⟨S_, .i32⟩
  | 97 => ⟨S3300000, .i32⟩
  | 98 => ⟨S3300000, .i1⟩
  | 99 => ⟨S_, .i32⟩
  | 100 => ⟨S3300000, .i32⟩
  | 101 => ⟨S3300000, .i32⟩
  | 102 => ⟨S3300000, .i32⟩
  | 103 => ⟨S3300000x1, .i32⟩
  | 104 => ⟨S3300000, .f32⟩
  | 105 => ⟨S3300000, .f32⟩
  | 106 => ⟨S100000x2, .f32⟩
  | 107 => ⟨S_, .i32⟩
  | 108 => ⟨S3300000, .i32⟩
  | 109 => ⟨S3300000, .i1⟩
  | 110 => ⟨S_, .i32⟩
  | 111 => ⟨S3300000, .i32⟩
  | 112 => ⟨S3300000, .i32⟩
  | 113 => ⟨S3300000, .i32⟩
  | 114 => ⟨S3300000x1, .i32⟩
  | 115 => ⟨S3300000x2, .f32⟩
  | 116 => ⟨S3300000x1, .f32⟩
  | 117 => ⟨S3300000x2, .f32⟩
  | 118 => ⟨S3300000x2, .f32⟩
  | 119 => ⟨S_, .f32⟩
  | 120 => ⟨S100000x2, .f32⟩
  | 121 => ⟨S3300000x1, .i32⟩
  | 122 => ⟨S100000x2, .f32⟩
  | 123 => ⟨S1x2, .f32⟩
  | 124 => ⟨S100000x2, .f32⟩
  | 125 => ⟨S100000x2, .f32⟩
  | 126 => ⟨S_, .f32⟩
  | 127 => ⟨S100000, .f32⟩
  | _ => ⟨S100000x3, .f32⟩

abbrev hbmTy0_1 (i : Nat) : BufTy := match i % 128 with
  | 0 => ⟨S_, .f32⟩
  | 1 => ⟨S100000, .f32⟩
  | 2 => ⟨S100000, .f32⟩
  | 3 => ⟨S100000x1, .f32⟩
  | 4 => ⟨S100000x2, .f32⟩
  | 5 => ⟨S100000x2, .f32⟩
  | 6 => ⟨S100000x2, .f32⟩
  | 7 => ⟨S_, .f32⟩
  | 8 => ⟨S100000, .f32⟩
  | 9 => ⟨S100000x1, .f32⟩
  | 10 => ⟨S100000x1, .f32⟩
  | 11 => ⟨S100000x2, .f32⟩
  | 12 => ⟨S100000x2, .f32⟩
  | _ => ⟨S100000x3, .f32⟩

abbrev hbmTy (i : Nat) : BufTy := match i / 128 with
  | 0 => hbmTy0_0 i
  | 1 => hbmTy0_1 i
  | _ => ⟨S100000x3, .f32⟩

abbrev bufTy : (tb : Table) → Fin (tcTables nBuf tb) → BufTy
  | .hbm, ⟨i, _⟩ => hbmTy i
  | _, _ => ⟨S100000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_cst_3 : Ref sig .tc := ⟨.hbm, 25, rfl⟩
abbrev main_call0_v0 : Ref sig .tc := ⟨.hbm, 26, rfl⟩
abbrev main_call0_v1 : Ref sig .tc := ⟨.hbm, 27, rfl⟩
abbrev main_v15 : Ref sig .tc := ⟨.hbm, 28, rfl⟩
abbrev main_c : Ref sig .tc := ⟨.hbm, 29, rfl⟩
abbrev main_v16 : Ref sig .tc := ⟨.hbm, 30, rfl⟩
abbrev main_v17 : Ref sig .tc := ⟨.hbm, 31, rfl⟩
abbrev main_c_4 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_c_7 : Ref sig .tc := ⟨.hbm, 49, rfl⟩
abbrev main_v32 : Ref sig .tc := ⟨.hbm, 50, rfl⟩
abbrev main_v33 : Ref sig .tc := ⟨.hbm, 51, rfl⟩
abbrev main_c_8 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_cst_9 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_call1_cst : Ref sig .tc := ⟨.hbm, 68, rfl⟩
abbrev main_call1_v0 : Ref sig .tc := ⟨.hbm, 69, rfl⟩
abbrev main_v48 : Ref sig .tc := ⟨.hbm, 70, rfl⟩
abbrev main_cst_10 : Ref sig .tc := ⟨.hbm, 71, rfl⟩
abbrev main_v49 : Ref sig .tc := ⟨.hbm, 72, rfl⟩
abbrev main_cst_11 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_cst_12 : Ref sig .tc := ⟨.hbm, 77, rfl⟩
abbrev main_v53 : Ref sig .tc := ⟨.hbm, 78, rfl⟩
abbrev main_v54 : Ref sig .tc := ⟨.hbm, 79, rfl⟩
abbrev main_cst_13 : Ref sig .tc := ⟨.hbm, 80, rfl⟩
abbrev main_v55 : Ref sig .tc := ⟨.hbm, 81, rfl⟩
abbrev main_v56 : Ref sig .tc := ⟨.hbm, 82, rfl⟩
abbrev main_cst_14 : Ref sig .tc := ⟨.hbm, 83, rfl⟩
abbrev main_call2_v0 : Ref sig .tc := ⟨.hbm, 84, rfl⟩
abbrev main_call2_v1 : Ref sig .tc := ⟨.hbm, 85, rfl⟩
abbrev main_v57 : Ref sig .tc := ⟨.hbm, 86, rfl⟩
abbrev main_c_15 : Ref sig .tc := ⟨.hbm, 87, rfl⟩
abbrev main_v58 : Ref sig .tc := ⟨.hbm, 88, rfl⟩
abbrev main_v59 : Ref sig .tc := ⟨.hbm, 89, rfl⟩
abbrev main_c_16 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_c_17 : Ref sig .tc := ⟨.hbm, 96, rfl⟩
abbrev main_v65 : Ref sig .tc := ⟨.hbm, 97, rfl⟩
abbrev main_v66 : Ref sig .tc := ⟨.hbm, 98, rfl⟩
abbrev main_c_18 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_v70 : Ref sig .tc := ⟨.hbm, 103, rfl⟩
abbrev main_v71 : Ref sig .tc := ⟨.hbm, 104, rfl⟩
abbrev main_v72 : Ref sig .tc := ⟨.hbm, 105, rfl⟩
abbrev main_v73 : Ref sig .tc := ⟨.hbm, 106, rfl⟩
abbrev main_c_19 : Ref sig .tc := ⟨.hbm, 107, rfl⟩
abbrev main_v74 : Ref sig .tc := ⟨.hbm, 108, rfl⟩
abbrev main_v75 : Ref sig .tc := ⟨.hbm, 109, rfl⟩
abbrev main_c_20 : Ref sig .tc := ⟨.hbm, 110, rfl⟩
abbrev main_v76 : Ref sig .tc := ⟨.hbm, 111, rfl⟩
abbrev main_v77 : Ref sig .tc := ⟨.hbm, 112, rfl⟩
abbrev main_v78 : Ref sig .tc := ⟨.hbm, 113, rfl⟩
abbrev main_v79 : Ref sig .tc := ⟨.hbm, 114, rfl⟩
abbrev main_v80 : Ref sig .tc := ⟨.hbm, 115, rfl⟩
abbrev main_v81 : Ref sig .tc := ⟨.hbm, 116, rfl⟩
abbrev main_v82 : Ref sig .tc := ⟨.hbm, 117, rfl⟩
abbrev main_v83 : Ref sig .tc := ⟨.hbm, 118, rfl⟩
abbrev main_cst_21 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_call3_cst : Ref sig .tc := ⟨.hbm, 126, rfl⟩
abbrev main_call3_v0 : Ref sig .tc := ⟨.hbm, 127, rfl⟩
abbrev main_call3_cst_0 : Ref sig .tc := ⟨.hbm, 128, rfl⟩
abbrev main_call3_v1 : Ref sig .tc := ⟨.hbm, 129, rfl⟩
abbrev main_call3_v2 : Ref sig .tc := ⟨.hbm, 130, rfl⟩
abbrev main_call3_v3 : Ref sig .tc := ⟨.hbm, 131, rfl⟩
abbrev main_call3_v4 : Ref sig .tc := ⟨.hbm, 132, rfl⟩
abbrev main_call3_v5 : Ref sig .tc := ⟨.hbm, 133, rfl⟩
abbrev main_call3_v6 : Ref sig .tc := ⟨.hbm, 134, rfl⟩
abbrev main_call3_cst_1 : Ref sig .tc := ⟨.hbm, 135, rfl⟩
abbrev main_call3_v7 : Ref sig .tc := ⟨.hbm, 136, rfl⟩
abbrev main_call3_v8 : Ref sig .tc := ⟨.hbm, 137, rfl⟩
abbrev main_call3_v9 : Ref sig .tc := ⟨.hbm, 138, rfl⟩
abbrev main_call3_v10 : Ref sig .tc := ⟨.hbm, 139, rfl⟩
abbrev main_v90 : Ref sig .tc := ⟨.hbm, 140, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x16_0_1 : S3300000x1.BroadcastsInDim S3300000x16 (![0, 1] : Fin 2 → Fin S3300000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S3300000x1_S3300000x2_0_1 : S3300000x1.BroadcastsInDim S3300000x2 (![0, 1] : Fin 2 → Fin S3300000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x3_S3x16_S100000x16_1_0_0_1_n_n_wf : DotDims.WF S100000x3 S3x16 S100000x16 [1] [0] [0] [1] [] []
  gather_S100000x16_S3300000x1_S3300000x16_1_0_n_n_0_1_116_wf : GatherDims.WF S100000x16 S3300000x1 S3300000x16 [1] [0] [] [0] [] 1 ![1, 16]
  scatter_S100000x16_S3300000x1_S3300000x16_1_0_0_1_wf : ScatterDims.WF S100000x16 S3300000x1 S3300000x16 [1] [0] [0] 1
  dot_S100000x16_S16x2_S100000x2_1_0_0_1_n_n_wf : DotDims.WF S100000x16 S16x2 S100000x2 [1] [0] [0] [1] [] []
  gather_S100000x2_S3300000x1_S3300000x2_1_0_n_n_0_1_12_wf : GatherDims.WF S100000x2 S3300000x1 S3300000x2 [1] [0] [] [0] [] 1 ![1, 2]
  scatter_S100000x2_S3300000x1_S3300000x2_1_0_0_1_wf : ScatterDims.WF S100000x2 S3300000x1 S3300000x2 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x3_S3x16_S100000x16_1_0_0_1_n_n : DotDims S100000x3 S3x16 S100000x16 where
  lhsContracting := [1]
  rhsContracting := [0]
  lhsNonContracting := [0]
  rhsNonContracting := [1]
  lhsBatch := []
  rhsBatch := []
  wf := dot_S100000x3_S3x16_S100000x16_1_0_0_1_n_n_wf
def gather_S100000x16_S3300000x1_S3300000x16_1_0_n_n_0_1_116 : GatherDims S100000x16 S3300000x1 S3300000x16 where
  offsetDims := [1]
  collapsedSliceDims := [0]
  operandBatchingDims := []
  startIndicesBatchingDims := []
  startIndexMap := [0]
  indexVectorDim := 1
  sliceSizes := ![1, 16]
  wf := gather_S100000x16_S3300000x1_S3300000x16_1_0_n_n_0_1_116_wf
def scatter_S100000x16_S3300000x1_S3300000x16_1_0_0_1 : ScatterDims S100000x16 S3300000x1 S3300000x16 where
  updateWindowDims := [1]
  insertedWindowDims := [0]
  scatterDimsToOperandDims := [0]
  indexVectorDim := 1
  wf := scatter_S100000x16_S3300000x1_S3300000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S3300000x1_S3300000x2_1_0_n_n_0_1_12 : GatherDims S100000x2 S3300000x1 S3300000x2 where
  offsetDims := [1]
  collapsedSliceDims := [0]
  operandBatchingDims := []
  startIndicesBatchingDims := []
  startIndexMap := [0]
  indexVectorDim := 1
  sliceSizes := ![1, 2]
  wf := gather_S100000x2_S3300000x1_S3300000x2_1_0_n_n_0_1_12_wf
def scatter_S100000x2_S3300000x1_S3300000x2_1_0_0_1 : ScatterDims S100000x2 S3300000x1 S3300000x2 where
  updateWindowDims := [1]
  insertedWindowDims := [0]
  scatterDimsToOperandDims := [0]
  indexVectorDim := 1
  wf := scatter_S100000x2_S3300000x1_S3300000x2_1_0_0_1_wf

class Facts : Prop extends Facts₀ where

variable [Facts]
-- ==== Proof.KernelHost.lean ====
/-
  The kernel program's host stretches, and what a stretch or a region leaves alone.

  A stretch of host operations computes each buffer it writes as its operations' function of the buffers it reads,
  and leaves every other buffer as it was; a kernel region writes its output array only. From the launch to the first
  region the program builds the two edge lists (the given edges with one self-loop per node appended), the degree
  of every node as a scatter-sum of ones, its inverse square root where positive, and the edge weights as the
  product of the two end nodes' values, recast as a column. Each later stretch is a gather of rows by source node,
  or a scatter-sum by target node together with a bias vector recast as a row. These are the reference's own
  operations, so each buffer holds the reference's stage of the same name, for any float family.
-/
import proofs.«125452_j936302870865_1_alg».proof.Proof.Gen.KernelIdeal.Frame
import proofs.«125452_j936302870865_1_alg».proof.Proof.RefRead
import Idealize.ShloMosaic.Lib.StableHlo.Run
import Idealize.ShloMosaic.Lib.Pipeline.Value
import Idealize.ShloMosaic.Lib.ValueIdx

set_option maxRecDepth 16384
-- the notations below abbreviate the launch contents of the six arguments; their right-hand sides use a projection
set_option quotPrecheck false

noncomputable section

open Idealize.ShloMosaic Idealize.ShloMosaic.TcCoe Idealize.SL.Sem Idealize.ShloMosaic.ValueIdx

namespace Cert.Gcn.K

open Cert.KernelIdeal Cert.KernelIdeal.Gen
open Cert.ReferenceIdeal.Read

/-! ## A column and a row made from a vector by a reshape -/

/-- A vector recast as a column holds the vector's entries. -/
theorem col_entry {α : Type} {n : ℕ} (v : (⟨1, ![n]⟩ : Shape).Idx → α) (h : (⟨1, ![n]⟩ : Shape).ShapeCasts ⟨2, ![n, 1]⟩) (e : Fin n) :
    shapeCast ⟨2, ![n, 1]⟩ v h (ix2 e 0) = v (ix1 e) :=
  shapeCast_apply v h (ix2 e 0) (ix1 e) (by
    rw [Shape.rowMajor_val_one, Shape.rowMajor_val_two]
    show e.val = e.val * 1 + 0
    omega)

/-- A vector recast as a row holds the vector's entries. -/
theorem row_entry {α : Type} {n : ℕ} (v : (⟨1, ![n]⟩ : Shape).Idx → α) (h : (⟨1, ![n]⟩ : Shape).ShapeCasts ⟨2, ![1, n]⟩) (q : Fin n) :
    shapeCast ⟨2, ![1, n]⟩ v h (ix2 0 q) = v (ix1 q) :=
  shapeCast_apply v h (ix2 0 q) (ix1 q) (by
    rw [Shape.rowMajor_val_one, Shape.rowMajor_val_two]
    show q.val = 0 * n + q.val
    omega)

/-! ## The host stretches, for any float family -/

section Host

variable {F : FTy → Type} [FloatOps F]
variable (m : (ℓ : Loc nD τ sig) → Buf (Elt F) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)

/-! ### From the launch to the first region: the edge lists, the edge weights, the arguments -/

theorem W3_arg0 : W3 m ρ c (Proc.devRef .tc main_arg0) = a0 := by
  show StableHlo.after hostOps0_2 (StableHlo.after hostOps0_1 (StableHlo.after hostOps0 (W0 m ρ c))) (Proc.devRef .tc main_arg0) = _
  after_results_simp
  all_goals rfl
theorem W3_arg2 : W3 m ρ c (Proc.devRef .tc main_arg2) = a2 := by
  show StableHlo.after hostOps0_2 (StableHlo.after hostOps0_1 (StableHlo.after hostOps0 (W0 m ρ c))) (Proc.devRef .tc main_arg2) = _
  after_results_simp
  all_goals rfl
theorem W3_arg3 : W3 m ρ c (Proc.devRef .tc main_arg3) = a3 := by
  show StableHlo.after hostOps0_2 (StableHlo.after hostOps0_1 (StableHlo.after hostOps0 (W0 m ρ c))) (Proc.devRef .tc main_arg3) = _
  after_results_simp
  all_goals rfl
theorem W3_arg4 : W3 m ρ c (Proc.devRef .tc main_arg4) = a4 := by
  show StableHlo.after hostOps0_2 (StableHlo.after hostOps0_1 (StableHlo.after hostOps0 (W0 m ρ c))) (Proc.devRef .tc main_arg4) = _
  after_results_simp
  all_goals rfl
theorem W3_arg5 : W3 m ρ c (Proc.devRef .tc main_arg5) = a5 := by
  show StableHlo.after hostOps0_2 (StableHlo.after hostOps0_1 (StableHlo.after hostOps0 (W0 m ρ c))) (Proc.devRef .tc main_arg5) = _
  after_results_simp
  all_goals rfl

/-- The source nodes of the edges, the self-loops appended. -/
theorem W3_row : W3 m ρ c (Proc.devRef .tc main_v5) = val_main_v3 (F := F) a1 := by
  show StableHlo.after hostOps0_2 (StableHlo.after hostOps0_1 (StableHlo.after hostOps0 (W0 m ρ c))) (Proc.devRef .tc main_v5) = _
  after_results_simp
  all_goals rfl
/-- The target nodes of the edges, the self-loops appended. -/
theorem W3_col : W3 m ρ c (Proc.devRef .tc main_v6) = val_main_v6 (F := F) a1 := by
  show StableHlo.after hostOps0_2 (StableHlo.after hostOps0_1 (StableHlo.after hostOps0 (W0 m ρ c))) (Proc.devRef .tc main_v6) = _
  after_results_simp
  all_goals rfl
/-- The edge weights, as a column. -/
theorem W3_norm : W3 m ρ c (Proc.devRef .tc main_v31) = shapeCast S3300000x1 (val_main_v30 (F := F) a1) shapeCasts_S3300000_S3300000x1 := by
  show StableHlo.after hostOps0_2 (StableHlo.after hostOps0_1 (StableHlo.after hostOps0 (W0 m ρ c))) (Proc.devRef .tc main_v31) = _
  after_results_simp
  all_goals rfl

/-! ### A buffer kept across a stretch or a region -/

/-- Region 0 writes only the first dense product. -/
theorem W4_keep (b : Ref sig .tc) (hb : ∀ w, Pipeline.arrRef spec0 w ≠ b) (x : Buf (Elt F) ((c : Thread nD τ).loc b))
    (h : W3 m ρ c (Proc.devRef .tc b) = x) : W4 m ρ c (Proc.devRef .tc b) = x := (W4_of_ne m ρ c b hb).trans h
/-- Region 1 writes only the first layer's messages. -/
theorem W6_keep (b : Ref sig .tc) (hb : ∀ w, Pipeline.arrRef spec1 w ≠ b) (x : Buf (Elt F) ((c : Thread nD τ).loc b))
    (h : W5 m ρ c (Proc.devRef .tc b) = x) : W6 m ρ c (Proc.devRef .tc b) = x := (W6_of_ne m ρ c b hb).trans h
/-- Region 2 writes only the rectified layer. -/
theorem W8_keep (b : Ref sig .tc) (hb : ∀ w, Pipeline.arrRef spec2 w ≠ b) (x : Buf (Elt F) ((c : Thread nD τ).loc b))
    (h : W7 m ρ c (Proc.devRef .tc b) = x) : W8 m ρ c (Proc.devRef .tc b) = x := (W8_of_ne m ρ c b hb).trans h
/-- Region 3 writes only the second dense product. -/
theorem W9_keep (b : Ref sig .tc) (hb : ∀ w, Pipeline.arrRef spec3 w ≠ b) (x : Buf (Elt F) ((c : Thread nD τ).loc b))
    (h : W8 m ρ c (Proc.devRef .tc b) = x) : W9 m ρ c (Proc.devRef .tc b) = x := (W9_of_ne m ρ c b hb).trans h
/-- Region 4 writes only the second layer's messages. -/
theorem W11_keep (b : Ref sig .tc) (hb : ∀ w, Pipeline.arrRef spec4 w ≠ b) (x : Buf (Elt F) ((c : Thread nD τ).loc b))
    (h : W10 m ρ c (Proc.devRef .tc b) = x) : W11 m ρ c (Proc.devRef .tc b) = x := (W11_of_ne m ρ c b hb).trans h

/-- The edge weights are an input of region 1, which leaves its inputs as it found them. -/
theorem W6_norm (x : Buf (Elt F) ((c : Thread nD τ).loc main_v31)) (h : W5 m ρ c (Proc.devRef .tc main_v31) = x) :
    W6 m ρ c (Proc.devRef .tc main_v31) = x :=
  ((W6_arr m ρ c 1).trans (((dat1 (V5 m ρ) c).arrAt_in 1 rfl _).trans (A_eq1 (V5 m ρ) c 1))).trans h

/-! ### The later stretches: a gather of rows, a scatter-sum with a bias row, and the same again -/

section Stretch1
variable (b : Ref sig .tc)
/-- The rows of the first dense product, gathered by source node. -/
theorem W5_gather (h32 : W4 m ρ c (Proc.devRef .tc main_v32) = val_main_v31 (F := F) a0 a2)
    (h5 : W4 m ρ c (Proc.devRef .tc main_v5) = val_main_v3 (F := F) a1) :
    W5 m ρ c (Proc.devRef .tc main_v39) = val_main_v38 (F := F) a0 a1 a2 := by
  show StableHlo.after hostOps1 (W4 m ρ c) (Proc.devRef .tc main_v39) = _
  after_results
  rw [h32, h5]
  rfl
end Stretch1

theorem W5_row : W5 m ρ c (Proc.devRef .tc main_v5) = W4 m ρ c (Proc.devRef .tc main_v5) := by
  show StableHlo.after hostOps1 (W4 m ρ c) (Proc.devRef .tc main_v5) = _
  after_results
theorem W5_col : W5 m ρ c (Proc.devRef .tc main_v6) = W4 m ρ c (Proc.devRef .tc main_v6) := by
  show StableHlo.after hostOps1 (W4 m ρ c) (Proc.devRef .tc main_v6) = _
  after_results
theorem W5_norm : W5 m ρ c (Proc.devRef .tc main_v31) = W4 m ρ c (Proc.devRef .tc main_v31) := by
  show StableHlo.after hostOps1 (W4 m ρ c) (Proc.devRef .tc main_v31) = _
  after_results
theorem W5_arg3 : W5 m ρ c (Proc.devRef .tc main_arg3) = W4 m ρ c (Proc.devRef .tc main_arg3) := by
  show StableHlo.after hostOps1 (W4 m ρ c) (Proc.devRef .tc main_arg3) = _
  after_results
theorem W5_arg4 : W5 m ρ c (Proc.devRef .tc main_arg4) = W4 m ρ c (Proc.devRef .tc main_arg4) := by
  show StableHlo.after hostOps1 (W4 m ρ c) (Proc.devRef .tc main_arg4) = _
  after_results
theorem W5_arg5 : W5 m ρ c (Proc.devRef .tc main_arg5) = W4 m ρ c (Proc.devRef .tc main_arg5) := by
  show StableHlo.after hostOps1 (W4 m ρ c) (Proc.devRef .tc main_arg5) = _
  after_results

/-- The first layer's messages summed into their target nodes. -/
theorem W7_scatter (h40 : W6 m ρ c (Proc.devRef .tc main_v40) = val_main_v41 (F := F) a0 a1 a2)
    (h6 : W6 m ρ c (Proc.devRef .tc main_v6) = val_main_v6 (F := F) a1) :
    W7 m ρ c (Proc.devRef .tc main_v43) = val_main_v44 (F := F) a0 a1 a2 := by
  show StableHlo.after hostOps2 (W6 m ρ c) (Proc.devRef .tc main_v43) = _
  after_results
  rw [h40, h6]
  rfl
/-- The first bias, recast as a row. -/
theorem W7_bias (h3 : W6 m ρ c (Proc.devRef .tc main_arg3) = a3) :
    W7 m ρ c (Proc.devRef .tc main_v44) = shapeCast S1x16 a3 shapeCasts_S16_S1x16 := by
  show StableHlo.after hostOps2 (W6 m ρ c) (Proc.devRef .tc main_v44) = _
  after_results
  rw [h3]
  rfl
theorem W7_row : W7 m ρ c (Proc.devRef .tc main_v5) = W6 m ρ c (Proc.devRef .tc main_v5) := by
  show StableHlo.after hostOps2 (W6 m ρ c) (Proc.devRef .tc main_v5) = _
  after_results
theorem W7_col : W7 m ρ c (Proc.devRef .tc main_v6) = W6 m ρ c (Proc.devRef .tc main_v6) := by
  show StableHlo.after hostOps2 (W6 m ρ c) (Proc.devRef .tc main_v6) = _
  after_results
theorem W7_norm : W7 m ρ c (Proc.devRef .tc main_v31) = W6 m ρ c (Proc.devRef .tc main_v31) := by
  show StableHlo.after hostOps2 (W6 m ρ c) (Proc.devRef .tc main_v31) = _
  after_results
theorem W7_arg4 : W7 m ρ c (Proc.devRef .tc main_arg4) = W6 m ρ c (Proc.devRef .tc main_arg4) := by
  show StableHlo.after hostOps2 (W6 m ρ c) (Proc.devRef .tc main_arg4) = _
  after_results
theorem W7_arg5 : W7 m ρ c (Proc.devRef .tc main_arg5) = W6 m ρ c (Proc.devRef .tc main_arg5) := by
  show StableHlo.after hostOps2 (W6 m ρ c) (Proc.devRef .tc main_arg5) = _
  after_results

/-- The rows of the second dense product, gathered by source node. -/
theorem W10_gather (h46 : W9 m ρ c (Proc.devRef .tc main_v46) = val_main_v73 (F := F) a0 a1 a2 a3 a4)
    (h5 : W9 m ρ c (Proc.devRef .tc main_v5) = val_main_v3 (F := F) a1) :
    W10 m ρ c (Proc.devRef .tc main_v53) = val_main_v80 (F := F) a0 a1 a2 a3 a4 := by
  show StableHlo.after hostOps4 (W9 m ρ c) (Proc.devRef .tc main_v53) = _
  after_results
  rw [h46, h5]
  rfl
theorem W10_col : W10 m ρ c (Proc.devRef .tc main_v6) = W9 m ρ c (Proc.devRef .tc main_v6) := by
  show StableHlo.after hostOps4 (W9 m ρ c) (Proc.devRef .tc main_v6) = _
  after_results
theorem W10_norm : W10 m ρ c (Proc.devRef .tc main_v31) = W9 m ρ c (Proc.devRef .tc main_v31) := by
  show StableHlo.after hostOps4 (W9 m ρ c) (Proc.devRef .tc main_v31) = _
  after_results
theorem W10_arg5 : W10 m ρ c (Proc.devRef .tc main_arg5) = W9 m ρ c (Proc.devRef .tc main_arg5) := by
  show StableHlo.after hostOps4 (W9 m ρ c) (Proc.devRef .tc main_arg5) = _
  after_results

/-- The second layer's messages summed into their target nodes. -/
theorem W12_scatter (h54 : W11 m ρ c (Proc.devRef .tc main_v54) = val_main_v83 (F := F) a0 a1 a2 a3 a4)
    (h6 : W11 m ρ c (Proc.devRef .tc main_v6) = val_main_v6 (F := F) a1) :
    W12 m ρ c (Proc.devRef .tc main_v57) = val_main_v86 (F := F) a0 a1 a2 a3 a4 := by
  show StableHlo.after hostOps5 (W11 m ρ c) (Proc.devRef .tc main_v57) = _
  after_results
  rw [h54, h6]
  rfl
/-- The second bias, recast as a row. -/
theorem W12_bias (h5 : W11 m ρ c (Proc.devRef .tc main_arg5) = a5) :
    W12 m ρ c (Proc.devRef .tc main_v58) = shapeCast S1x2 a5 shapeCasts_S2_S1x2 := by
  show StableHlo.after hostOps5 (W11 m ρ c) (Proc.devRef .tc main_v58) = _
  after_results
  rw [h5]
  rfl

end Host

end Cert.Gcn.K

end
-- ==== Proof.KernelKeep.lean ====
import proofs.«125452_j936302870865_1_alg».proof.Proof.KernelHost

set_option maxRecDepth 16384
set_option quotPrecheck false

noncomputable section

open Idealize.ShloMosaic Idealize.ShloMosaic.TcCoe Idealize.SL.Sem Idealize.ShloMosaic.ValueIdx

namespace Cert.Gcn.K

open Cert.KernelIdeal Cert.KernelIdeal.Gen
open Cert.ReferenceIdeal.Read

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)

theorem row4 : W4 m ρ c (Proc.devRef .tc main_v5) = val_main_v3 (F := Ideal) a1 := W4_keep m ρ c main_v5 (by decide) _ (W3_row m ρ c)
theorem row5 : W5 m ρ c (Proc.devRef .tc main_v5) = val_main_v3 (F := Ideal) a1 := (W5_row m ρ c).trans (row4 m ρ c)
theorem row6 : W6 m ρ c (Proc.devRef .tc main_v5) = val_main_v3 (F := Ideal) a1 := W6_keep m ρ c main_v5 (by decide) _ (row5 m ρ c)
theorem row7 : W7 m ρ c (Proc.devRef .tc main_v5) = val_main_v3 (F := Ideal) a1 := (W7_row m ρ c).trans (row6 m ρ c)
theorem row8 : W8 m ρ c (Proc.devRef .tc main_v5) = val_main_v3 (F := Ideal) a1 := W8_keep m ρ c main_v5 (by decide) _ (row7 m ρ c)
theorem row9 : W9 m ρ c (Proc.devRef .tc main_v5) = val_main_v3 (F := Ideal) a1 := W9_keep m ρ c main_v5 (by decide) _ (row8 m ρ c)
theorem col4 : W4 m ρ c (Proc.devRef .tc main_v6) = val_main_v6 (F := Ideal) a1 := W4_keep m ρ c main_v6 (by decide) _ (W3_col m ρ c)
theorem col5 : W5 m ρ c (Proc.devRef .tc main_v6) = val_main_v6 (F := Ideal) a1 := (W5_col m ρ c).trans (col4 m ρ c)
theorem col6 : W6 m ρ c (Proc.devRef .tc main_v6) = val_main_v6 (F := Ideal) a1 := W6_keep m ρ c main_v6 (by decide) _ (col5 m ρ c)
theorem col7 : W7 m ρ c (Proc.devRef .tc main_v6) = val_main_v6 (F := Ideal) a1 := (W7_col m ρ c).trans (col6 m ρ c)
theorem col8 : W8 m ρ c (Proc.devRef .tc main_v6) = val_main_v6 (F := Ideal) a1 := W8_keep m ρ c main_v6 (by decide) _ (col7 m ρ c)
theorem col9 : W9 m ρ c (Proc.devRef .tc main_v6) = val_main_v6 (F := Ideal) a1 := W9_keep m ρ c main_v6 (by decide) _ (col8 m ρ c)
theorem col10 : W10 m ρ c (Proc.devRef .tc main_v6) = val_main_v6 (F := Ideal) a1 := (W10_col m ρ c).trans (col9 m ρ c)
theorem col11 : W11 m ρ c (Proc.devRef .tc main_v6) = val_main_v6 (F := Ideal) a1 := W11_keep m ρ c main_v6 (by decide) _ (col10 m ρ c)
theorem norm4 : W4 m ρ c (Proc.devRef .tc main_v31) = shapeCast S3300000x1 (val_main_v30 (F := Ideal) a1) shapeCasts_S3300000_S3300000x1 := W4_keep m ρ c main_v31 (by decide) _ (W3_norm m ρ c)
theorem norm5 : W5 m ρ c (Proc.devRef .tc main_v31) = shapeCast S3300000x1 (val_main_v30 (F := Ideal) a1) shapeCasts_S3300000_S3300000x1 := (W5_norm m ρ c).trans (norm4 m ρ c)
theorem norm6 : W6 m ρ c (Proc.devRef .tc main_v31) = shapeCast S3300000x1 (val_main_v30 (F := Ideal) a1) shapeCasts_S3300000_S3300000x1 := W6_norm m ρ c _ (norm5 m ρ c)
theorem norm7 : W7 m ρ c (Proc.devRef .tc main_v31) = shapeCast S3300000x1 (val_main_v30 (F := Ideal) a1) shapeCasts_S3300000_S3300000x1 := (W7_norm m ρ c).trans (norm6 m ρ c)
theorem norm8 : W8 m ρ c (Proc.devRef .tc main_v31) = shapeCast S3300000x1 (val_main_v30 (F := Ideal) a1) shapeCasts_S3300000_S3300000x1 := W8_keep m ρ c main_v31 (by decide) _ (norm7 m ρ c)
theorem norm9 : W9 m ρ c (Proc.devRef .tc main_v31) = shapeCast S3300000x1 (val_main_v30 (F := Ideal) a1) shapeCasts_S3300000_S3300000x1 := W9_keep m ρ c main_v31 (by decide) _ (norm8 m ρ c)
theorem norm10 : W10 m ρ c (Proc.devRef .tc main_v31) = shapeCast S3300000x1 (val_main_v30 (F := Ideal) a1) shapeCasts_S3300000_S3300000x1 := (W10_norm m ρ c).trans (norm9 m ρ c)
theorem b14 : W4 m ρ c (Proc.devRef .tc main_arg3) = a3 := W4_keep m ρ c main_arg3 (by decide) _ (W3_arg3 m ρ c)
theorem b15 : W5 m ρ c (Proc.devRef .tc main_arg3) = a3 := (W5_arg3 m ρ c).trans (b14 m ρ c)
theorem b16 : W6 m ρ c (Proc.devRef .tc main_arg3) = a3 := W6_keep m ρ c main_arg3 (by decide) _ (b15 m ρ c)
theorem w24 : W4 m ρ c (Proc.devRef .tc main_arg4) = a4 := W4_keep m ρ c main_arg4 (by decide) _ (W3_arg4 m ρ c)
theorem w25 : W5 m ρ c (Proc.devRef .tc main_arg4) = a4 := (W5_arg4 m ρ c).trans (w24 m ρ c)
theorem w26 : W6 m ρ c (Proc.devRef .tc main_arg4) = a4 := W6_keep m ρ c main_arg4 (by decide) _ (w25 m ρ c)
theorem w27 : W7 m ρ c (Proc.devRef .tc main_arg4) = a4 := (W7_arg4 m ρ c).trans (w26 m ρ c)
theorem w28 : W8 m ρ c (Proc.devRef .tc main_arg4) = a4 := W8_keep m ρ c main_arg4 (by decide) _ (w27 m ρ c)
theorem b24 : W4 m ρ c (Proc.devRef .tc main_arg5) = a5 := W4_keep m ρ c main_arg5 (by decide) _ (W3_arg5 m ρ c)
theorem b25 : W5 m ρ c (Proc.devRef .tc main_arg5) = a5 := (W5_arg5 m ρ c).trans (b24 m ρ c)
theorem b26 : W6 m ρ c (Proc.devRef .tc main_arg5) = a5 := W6_keep m ρ c main_arg5 (by decide) _ (b25 m ρ c)
theorem b27 : W7 m ρ c (Proc.devRef .tc main_arg5) = a5 := (W7_arg5 m ρ c).trans (b26 m ρ c)
theorem b28 : W8 m ρ c (Proc.devRef .tc main_arg5) = a5 := W8_keep m ρ c main_arg5 (by decide) _ (b27 m ρ c)
theorem b29 : W9 m ρ c (Proc.devRef .tc main_arg5) = a5 := W9_keep m ρ c main_arg5 (by decide) _ (b28 m ρ c)
theorem b210 : W10 m ρ c (Proc.devRef .tc main_arg5) = a5 := (W10_arg5 m ρ c).trans (b29 m ρ c)
theorem b211 : W11 m ρ c (Proc.devRef .tc main_arg5) = a5 := W11_keep m ρ c main_arg5 (by decide) _ (b210 m ρ c)

end Cert.Gcn.K

end
-- ==== Proof.Spec.lean ====
/-
  A two-layer graph convolution, stage by stage, as functions of whole arrays over the extended reals.

  One layer is: a dense product x·W; for every edge e the row of its source node, scaled by the edge's weight
  ν(e) (the symmetric degree normalisation, a function of the edge list alone); the scaled rows summed into their
  target nodes; a bias added. The first layer ends in the rectifier max(·, 0), the second in the logarithm of the
  softmax along each row of two entries. The gathers and the scatter-sums are the same host operations in both
  programs; what is written here are the four stages a layer computes entry by entry.
-/
import Idealize.ShloMosaic.Lib.ValueIdx
import Idealize.ShloMosaic.PureOps.Ideal

noncomputable section

namespace Cert.Gcn

open Idealize.ShloMosaic Idealize.ShloMosaic.ValueIdx

/-- The dense product x·W: entry (p, q) is ∑ κ, x (p, κ) · w (κ, q). -/
def dense (n k d : ℕ) (x : FVec Ideal ⟨2, ![n, k]⟩ .f32) (w : FVec Ideal ⟨2, ![k, d]⟩ .f32) : FVec Ideal ⟨2, ![n, d]⟩ .f32 :=
  fun i => ∑ κ : Fin k, x (ix2 (i 0) κ) * w (ix2 κ (i 1))

/-- Every row scaled by its own weight: entry (e, q) is g (e, q) · ν (e, 0), the weights a column. -/
def scaleRows (e d : ℕ) (g : FVec Ideal ⟨2, ![e, d]⟩ .f32) (ν : FVec Ideal ⟨2, ![e, 1]⟩ .f32) : FVec Ideal ⟨2, ![e, d]⟩ .f32 :=
  fun i => g i * ν (ix2 (i 0) 0)

/-- A bias row added to every row, then the rectifier: entry (p, q) is max (a (p, q) + b (0, q)) 0. -/
def biasRelu (n d : ℕ) (a : FVec Ideal ⟨2, ![n, d]⟩ .f32) (b : FVec Ideal ⟨2, ![1, d]⟩ .f32) : FVec Ideal ⟨2, ![n, d]⟩ .f32 :=
  fun i => max (a i + b (ix2 0 (i 1))) (Ideal.ofBits .f32 0x00000000#32)

/-- A bias row added to every row of two entries, then the logarithm of the row's softmax, in the shifted form:
    with z = a (p, ·) + b (0, ·) and μ = max (z 0) (z 1), entry (p, q) is (z q − μ) − log (exp (z 0 − μ) + exp (z 1 − μ)). -/
def biasLogSoftmax2 (n : ℕ) (a : FVec Ideal ⟨2, ![n, 2]⟩ .f32) (b : FVec Ideal ⟨2, ![1, 2]⟩ .f32) : FVec Ideal ⟨2, ![n, 2]⟩ .f32 :=
  fun i =>
    let z : Fin 2 → EReal := fun q => a (ix2 (i 0) q) + b (ix2 0 q)
    let μ : EReal := max (z 0) (z 1)
    (z (i 1) - μ) - Ideal.log (Ideal.exp (z 0 - μ) + Ideal.exp (z 1 - μ))

/-- The same, read at the entry (p, q). -/
theorem biasLogSoftmax2_apply (n : ℕ) (a : FVec Ideal ⟨2, ![n, 2]⟩ .f32) (b : FVec Ideal ⟨2, ![1, 2]⟩ .f32) (p : Fin n) (q : Fin 2) :
    biasLogSoftmax2 n a b (ix2 p q)
      = ((a (ix2 p q) + b (ix2 0 q)) - max (a (ix2 p 0) + b (ix2 0 0)) (a (ix2 p 1) + b (ix2 0 1)))
        - Ideal.log (Ideal.exp ((a (ix2 p 0) + b (ix2 0 0)) - max (a (ix2 p 0) + b (ix2 0 0)) (a (ix2 p 1) + b (ix2 0 1)))
            + Ideal.exp ((a (ix2 p 1) + b (ix2 0 1)) - max (a (ix2 p 0) + b (ix2 0 0)) (a (ix2 p 1) + b (ix2 0 1)))) := rfl

end Cert.Gcn

end
-- ==== Proof.LibPlainDot.lean ====
/-
  A plain matrix product [a, k] · [k, b] → [a, b]: no batch axis, one contracted axis of extent k (axis 1 of the left
  operand, axis 0 of the right), the rows from the left operand, the columns from the right.

  The dimension numbers place the coordinates: the left operand is read at (row of the result, contraction
  position), the right at (contraction position, column of the result). So at the ideal values, where both the
  kernel's product into a zero accumulator and the host's product are the exact sum over the contraction index,
  the entry (p, q) of either is  ∑ κ < k, l (p, κ) · r (κ, q).
-/
import Idealize.ShloMosaic.Lib.ValueIdx
import Idealize.ShloMosaic.PureOps.Ideal.Laws

namespace Cert.PlainDot

open Idealize.ShloMosaic Idealize.ShloMosaic.ValueIdx

variable {a k b : ℕ} (d : DotDims ⟨2, ![a, k]⟩ ⟨2, ![k, b]⟩ ⟨2, ![a, b]⟩)

/-- The dimension numbers of a plain matrix product. -/
structure Plain : Prop where
  lhsBatch : d.lhsBatch = []
  lhsNon : d.lhsNonContracting = [0]
  lhsContr : d.lhsContracting = [1]
  rhsBatch : d.rhsBatch = []
  rhsNon : d.rhsNonContracting = [1]
  rhsContr : d.rhsContracting = [0]

variable {d}

/-- The left operand's row is the result's row. -/
theorem lhs_row (h : Plain d) (j : (⟨2, ![a, b]⟩ : Shape).Idx) (q : d.contr.Idx) : (d.lhsIdx j q 0).val = (j 0).val := by
  unfold DotDims.lhsIdx
  rw [dif_neg (by rw [h.lhsBatch]; exact List.not_mem_nil), dif_pos (by rw [h.lhsNon]; exact List.mem_singleton.mpr rfl)]
  simp only [Fin.val_cast]
  have key : ∀ (p : Nat) (hp : p < 2), p = 0 → (j ⟨p, hp⟩).val = (j 0).val := fun p hp e => by subst e; rfl
  exact key _ _ (by simp [h.lhsBatch, h.lhsNon])

/-- The right operand's column is the result's column. -/
theorem rhs_col (h : Plain d) (j : (⟨2, ![a, b]⟩ : Shape).Idx) (q : d.contr.Idx) : (d.rhsIdx j q 1).val = (j 1).val := by
  unfold DotDims.rhsIdx
  rw [dif_neg (by rw [h.rhsBatch]; exact List.not_mem_nil), dif_pos (by rw [h.rhsNon]; exact List.mem_singleton.mpr rfl)]
  simp only [Fin.val_cast]
  have key : ∀ (p : Nat) (hp : p < 2), p = 1 → (j ⟨p, hp⟩).val = (j 1).val := fun p hp e => by subst e; rfl
  exact key _ _ (by simp [h.lhsBatch, h.lhsNon, h.rhsNon])

/-- The contraction over the record's own index type, re-indexed to κ < k. -/
theorem sum_contr (h : Plain d) (hr : d.contr.rank = 1) (hs : d.contr.size ⟨0, by omega⟩ = k)
    (l : (⟨2, ![a, k]⟩ : Shape).Idx → EReal) (r : (⟨2, ![k, b]⟩ : Shape).Idx → EReal) (p : Fin a) (q : Fin b) :
    ∑ κ : d.contr.Idx, l (d.lhsIdx (ix2 p q) κ) * r (d.rhsIdx (ix2 p q) κ) = ∑ κ : Fin k, l (ix2 p κ) * r (ix2 κ q) := by
  rw [← Equiv.sum_comp (contrEquiv1 d k hr hs).symm]
  refine Finset.sum_congr rfl fun κ _ => ?_
  have hk := contrEquiv1_symm_val d k hr hs κ
  have el : d.lhsIdx (ix2 p q) ((contrEquiv1 d k hr hs).symm κ) = ix2 p κ := funext fun x => Fin.ext (by
    match x with
    | ⟨0, _⟩ => exact lhs_row h _ _
    | ⟨1, _⟩ => exact (d.lhsIdx_val_of_single h.lhsContr _ _).trans hk)
  have er : d.rhsIdx (ix2 p q) ((contrEquiv1 d k hr hs).symm κ) = ix2 κ q := funext fun x => Fin.ext (by
    match x with
    | ⟨0, _⟩ => exact (d.rhsIdx_val_of_single h.rhsContr _ _).trans hk
    | ⟨1, _⟩ => exact rhs_col h _ _)
  rw [el, er]

/-- The kernel's matrix product into a zero accumulator, at an entry. -/
theorem matmul_zero_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    matmul d prec l r (constant ⟨2, ![a, b]⟩ .f32 0x00000000#32) (ix2 p q) = ∑ κ : Fin k, l (ix2 p κ) * r (ix2 κ q) :=
  (Ideal.matmul_constant_zero_apply d prec l r (ix2 p q)).trans (sum_contr h hr hs l r p q)

/-- The host's matrix product, at an entry. -/
theorem dotGeneral_apply {φ₁ φ₂ : FTy} (h : Plain d) (hr : d.contr.rank = 1) (hs : d.contr.size ⟨0, by omega⟩ = k)
    (prec : Option ContractPrecision) (l : FVec Ideal ⟨2, ![a, k]⟩ φ₁) (r : FVec Ideal ⟨2, ![k, b]⟩ φ₂) (p : Fin a) (q : Fin b) :
    Host.dotGeneral d prec l r (ix2 p q) = ∑ κ : Fin k, l (ix2 p κ) * r (ix2 κ q) := by
  simp only [Host.dotGeneral]
  exact (Ideal.dotGeneral_apply d prec _ l r (ix2 p q)).trans (sum_contr h hr hs l r p q)

end Cert.PlainDot
-- ==== Proof.Region0.lean ====
/-
  The first dense layer, as a kernel over row blocks.

  At grid point t the kernel takes rows 5000·t … 5000·t + 4999 of x [100000, 3] and the whole weight matrix
  W [3, 16], casts both to a narrower float format (the identity at the ideal values), multiplies them into a zero
  accumulator and writes the block of the same rows of the output. Entry (p, q) of that product is
  ∑ κ, x (p, κ) · W (κ, q) whatever block row p lies in, so what a point writes is its block of ONE function of the two
  arrays; the twenty blocks tile the 100000 rows, so the output array ends holding the dense product of the arrays
  as the region found them.
-/
import proofs.«125452_j936302870865_1_alg».proof.Proof.Gen.KernelIdeal.Frame
import proofs.«125452_j936302870865_1_alg».proof.Proof.Spec
import proofs.«125452_j936302870865_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.Gcn.K

open Cert.KernelIdeal Cert.KernelIdeal.Gen

variable (V : (c : Dev nD) → (b : Ref sig .tc) → Buf (Elt Ideal) ((c : Thread nD τ).loc b))

/-- The zero offset of a whole-buffer access, as the constant function. -/
theorem lin1_hz : (![0, 0] : Fin 2 → Nat) = fun _ => 0 := funext fun a => by fin_cases a <;> rfl

/-- The index maps over the grid of 20 points: at point t the left operand's block is (t, 0), the weight's block is
    (0, 0) at every point (it is staged whole), and the result's block is (t, 0). -/
theorem lin1_idx : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- The body's value at an entry: both operands pass the narrowing cast unchanged at the ideal values, and the
    product into the zero accumulator is the exact sum over the contracted axis,
    entry (p, q) = ∑ κ < 3, x0 (p, κ) · x1 (κ, q). -/
theorem lin1_pay (x0 : Vec Ideal S5000x3 .f32) (x1 : Vec Ideal S3x16 .f32) (p : Fin 5000) (q : Fin 16) :
    k0_pay1 x0 x1 (ix2 p q) = ∑ κ : Fin 3, x0 (ix2 p κ) * x1 (ix2 κ q) := by
  unfold k0_pay1
  exact Cert.PlainDot.matmul_zero_apply (d := dot_S5000x3_S3x16_S5000x16_1_0_0_1_n_n) ⟨rfl, rfl, rfl, rfl, rfl, rfl⟩ rfl
    (by decide) none _ _ p q

/-- The body's value on the blocks of point t, at the block entry j, is the dense product of the whole arrays at the
    array entry under j: row 5000·t + j₀ of the left array is row j₀ of its block t, and the weight's only block is
    the weight. -/
theorem lin1_entry (c : Dev nD) (t : Fin cfg0.N) (j : S5000x16.Idx) :
    k0_pay1 (iblk0 V c 0 t) (iblk0 V c 1 t) j
      = Cert.Gcn.dense 100000 3 16 (V c main_arg0 : FVec Ideal S100000x3 .f32) (V c main_arg2 : FVec Ideal S3x16 .f32)
          (((cfg0.win 2).blk t).view.emb j) := by
  obtain ⟨p, q, rfl⟩ : ∃ (p : Fin 5000) (q : Fin 16), j = ix2 p q := ⟨j 0, j 1, eq_ix2 j⟩
  obtain ⟨e00, e01, e10, e11, e20, e21⟩ := lin1_idx t
  rw [lin1_pay]
  unfold Cert.Gcn.dense
  refine Finset.sum_congr rfl fun κ _ => ?_
  have h0 : iblk0 V c 0 t (ix2 p κ) = V c main_arg0 (ix2 (((cfg0.win 2).blk t).view.emb (ix2 p q) 0) κ) := by
    unfold iblk0
    rw [View.read_apply]
    show V c main_arg0 _ = V c main_arg0 _
    congr 1
    funext a
    apply Fin.ext
    match a with
    | ⟨0, _⟩ =>
      show win0_0.index t (0 : Fin 2) * 5000 + 1 * p.val = win0_2.index t (0 : Fin 2) * 5000 + 1 * p.val
      rw [e00, e20]
    | ⟨1, _⟩ => show win0_0.index t (1 : Fin 2) * 3 + 1 * κ.val = κ.val; rw [e01]; omega
  have h1 : iblk0 V c 1 t (ix2 κ q) = V c main_arg2 (ix2 κ (((cfg0.win 2).blk t).view.emb (ix2 p q) 1)) := by
    unfold iblk0
    rw [View.read_apply]
    show V c main_arg2 _ = V c main_arg2 _
    congr 1
    funext a
    apply Fin.ext
    match a with
    | ⟨0, _⟩ => show win0_1.index t (0 : Fin 2) * 3 + 1 * κ.val = κ.val; rw [e10]; omega
    | ⟨1, _⟩ =>
      show win0_1.index t (1 : Fin 2) * 16 + 1 * q.val = win0_2.index t (1 : Fin 2) * 16 + 1 * q.val
      rw [e11, e21]
  rw [h0, h1]

/-- What point t writes back is block t of the dense product of the whole arrays. -/
theorem lin1_flushed (c : Dev nD) (t : Fin cfg0.N) :
    (dat0 (F := Ideal) V c).flushed 2 t = ((cfg0.win 2).blk t).view.read (Elt Ideal)
      (Cert.Gcn.dense 100000 3 16 (V c main_arg0 : FVec Ideal S100000x3 .f32) (V c main_arg2 : FVec Ideal S3x16 .f32)) := by
  show (cfg0.win 2).cut (grid0.coords t) ((dat0 (F := Ideal) V c).after 2 t) = _
  rw [after0_2]
  unfold out0_2
  rw [View.canon_unit_zero lin1_hz]
  simp only [View.ld_unit_zero (S := S5000x3) lin1_hz, View.ld_unit_zero (S := S3x16) lin1_hz]
  funext j
  exact lin1_entry V c t j

/-- An entry of the result array lies in point t's block iff each coordinate lies in the block's range on its axis. -/
theorem lin1_mem_blk (t : Fin cfg0.N) (i : S100000x16.Idx) :
    i ∈ ((cfg0.win 2).blk t).view.set ↔ ∀ a : Fin 2, win0_2.index t a * S5000x16.size a ≤ (i a).val
      ∧ (i a).val < win0_2.index t a * S5000x16.size a + S5000x16.size a := by
  show i ∈ ((View.whole main_v32).slice (win0_2.rect t)).set ↔ _
  rw [View.set_slice_whole, Rect.mem_set_unit]
  exact Iff.rfl

/-- The 20 row blocks of 5000 rows tile the 100000 rows: entry (r, q) lies in the block of point r / 5000. -/
theorem lin1_cover (i : S100000x16.Idx) :
    ∃ t : Fin cfg0.N, (cfg0.win 2).flush t = true ∧ i ∈ ((cfg0.win 2).blk t).view.set := by
  have hi0 : (i 0).val < 100000 := (i 0).isLt
  have hi1 : (i 1).val < 16 := (i 1).isLt
  have hN : cfg0.N = 20 := N_0
  obtain ⟨t, ht⟩ : ∃ t : Fin cfg0.N, t.val = (i 0).val / 5000 := ⟨⟨(i 0).val / 5000, by rw [hN]; omega⟩, rfl⟩
  obtain ⟨-, -, -, -, e20, e21⟩ := lin1_idx t
  refine ⟨t, flush0_2 t, ?_⟩
  rw [lin1_mem_blk]
  intro a
  match a with
  | ⟨0, _⟩ =>
    show win0_2.index t (0 : Fin 2) * 5000 ≤ (i 0).val ∧ (i 0).val < win0_2.index t (0 : Fin 2) * 5000 + 5000
    rw [e20, ht]; omega
  | ⟨1, _⟩ =>
    show win0_2.index t (1 : Fin 2) * 16 ≤ (i 1).val ∧ (i 1).val < win0_2.index t (1 : Fin 2) * 16 + 16
    rw [e21]; omega

theorem lin1_array (c : Dev nD) :
    (dat0 (F := Ideal) V c).arrAt 2 cfg0.N
      = Cert.Gcn.dense 100000 3 16 (V c main_arg0 : FVec Ideal S100000x3 .f32) (V c main_arg2 : FVec Ideal S3x16 .f32) :=
  (dat0 (F := Ideal) V c).arrAt_eq_of_cover 2 _ (fun t _ => lin1_flushed V c t) lin1_cover

end Cert.Gcn.K

end
-- ==== Proof.Region1.lean ====
/-
  The first layer's edge weighting, as a kernel over row blocks.

  At grid point t the kernel takes rows 6000·t … 6000·t + 5999 of the gathered rows g [3300000, 16] and the same rows
  of the weight column ν [3300000, 1], repeats each weight along its row and multiplies entry by entry. Entry (e, q) of
  the block is g (e, q) · ν (e, 0) whatever block edge e lies in, so what a point writes is its block of ONE function of
  the two arrays; the 550 blocks tile the 3300000 rows, so the output array ends holding every row scaled by its own
  weight.
-/
import proofs.«125452_j936302870865_1_alg».proof.Proof.Gen.KernelIdeal.Frame
import proofs.«125452_j936302870865_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.Gcn.K

open Cert.KernelIdeal Cert.KernelIdeal.Gen

variable (V : (c : Dev nD) → (b : Ref sig .tc) → Buf (Elt Ideal) ((c : Thread nD τ).loc b))

/-- The zero offsets of a whole-block access, as a constant function. -/
theorem hz1 : (![0, 0] : Fin 2 → Nat) = fun _ => 0 := funext fun a => by fin_cases a <;> rfl

/-- The body's arithmetic at an index: entry (p, q) of the result is entry (p, q) of the block of g times entry
    (p, 0) of the block of the column ν, the column broadcast along the row. -/
theorem pay1_apply (x0 : Vec Ideal S6000x16 .f32) (x1 : Vec Ideal S6000x1 .f32) (p : Fin 6000) (q : Fin 16) :
    k1_pay1 x0 x1 (ix2 p q) = x0 (ix2 p q) * x1 (ix2 p 0) := by
  unfold k1_pay1
  rw [mulf_apply, shapeCast_self, shapeCast_self]
  congr 1
  refine broadcastTo_apply _ _ _ (ix2 p 0) ?_
  intro a
  match a with
  | ⟨0, _⟩ => rfl
  | ⟨1, _⟩ => rfl

/-- The index maps at the grid's t-th point: all three windows sit at block row t, block column 0 (the grid has
    one axis of 550 points, so the point's coordinate is t itself, and t fits a 32-bit word). -/
theorem idx1 (t : Fin cfg1.N) :
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0 := by
  have ht : t.val < 550 := Nat.lt_of_lt_of_eq t.isLt N_1
  have h : ((grid1.coords t) 0).val = t.val := by
    show t.val / grid1.stride 0 % 550 = t.val
    rw [show grid1.stride 0 = 1 from by decide, Nat.div_one, Nat.mod_eq_of_lt ht]
  have e : (BitVec.ofNat 32 ((grid1.coords t) 0).val).toNat = t.val := by
    rw [h, BitVec.toNat_ofNat]; omega
  exact ⟨e, rfl, e, rfl, e, rfl⟩

/-- The block of g at point t is rows 6000 t … 6000 t + 5999 of g. -/
theorem iblk1_0_apply (c : Dev nD) (t : Fin cfg1.N) (p : Fin 6000) (q : Fin 16) (k : S3300000x16.Idx)
    (hk0 : (k 0).val = t.val * 6000 + p.val) (hk1 : (k 1).val = q.val) :
    (iblk1 V c 0 t : Vec Ideal S6000x16 .f32) (ix2 p q) = (V c main_v39 : FVec Ideal S3300000x16 .f32) k := by
  obtain ⟨e0, e1, -⟩ := idx1 t
  unfold iblk1
  rw [View.read_apply]
  show (V c main_v39 : FVec Ideal S3300000x16 .f32) _ = _
  congr 1
  funext a
  apply Fin.ext
  match a with
  | ⟨0, _⟩ => show win1_0.index t 0 * 6000 + 1 * p.val = (k 0).val; rw [e0, hk0]; omega
  | ⟨1, _⟩ => show win1_0.index t 1 * 16 + 1 * q.val = (k 1).val; rw [e1, hk1]; omega

/-- The block of ν at point t is rows 6000 t … 6000 t + 5999 of the column ν. -/
theorem iblk1_1_apply (c : Dev nD) (t : Fin cfg1.N) (p : Fin 6000) (q : Fin 1) (k : S3300000x1.Idx)
    (hk0 : (k 0).val = t.val * 6000 + p.val) (hk1 : (k 1).val = q.val) :
    (iblk1 V c 1 t : Vec Ideal S6000x1 .f32) (ix2 p q) = (V c main_v31 : FVec Ideal S3300000x1 .f32) k := by
  obtain ⟨-, -, e2, e3, -⟩ := idx1 t
  unfold iblk1
  rw [View.read_apply]
  show (V c main_v31 : FVec Ideal S3300000x1 .f32) _ = _
  congr 1
  funext a
  apply Fin.ext
  match a with
  | ⟨0, _⟩ => show win1_1.index t 0 * 6000 + 1 * p.val = (k 0).val; rw [e2, hk0]; omega
  | ⟨1, _⟩ => show win1_1.index t 1 * 1 + 1 * q.val = (k 1).val; rw [e3, hk1]; omega

/-- What point t writes back is block t of the row-scaled array: at the block's entry (p, q), which is the array's
    entry (6000 t + p, q), the body multiplied g (6000 t + p, q) by ν (6000 t + p, 0). -/
theorem flushed1_eq (c : Dev nD) (t : Fin cfg1.N) :
    (dat1 (F := Ideal) V c).flushed 2 t = ((cfg1.win 2).blk t).view.read (Elt Ideal)
      (Cert.Gcn.scaleRows 3300000 16 (V c main_v39 : FVec Ideal S3300000x16 .f32) (V c main_v31 : FVec Ideal S3300000x1 .f32)) := by
  show (cfg1.win 2).cut (grid1.coords t) ((dat1 V c).after 2 t) = _
  rw [after1_2]
  unfold out1_2
  rw [View.canon_unit_zero hz1]
  simp only [View.ld_unit_zero (S := S6000x16) hz1, View.ld_unit_zero (S := S6000x1) hz1]
  obtain ⟨e0, e1, e2, e3, e4, e5⟩ := idx1 t
  funext j
  have hj0 : (j 0).val < 6000 := (j 0).isLt
  have hj1 : (j 1).val < 16 := (j 1).isLt
  have hx : (cfg1.win 2).xinj (grid1.coords t) j = ix2 (⟨(j 0).val, hj0⟩ : Fin 6000) (⟨(j 1).val, hj1⟩ : Fin 16) :=
    funext fun a => by match a with | ⟨0, _⟩ => rfl | ⟨1, _⟩ => rfl
  show k1_pay1 (iblk1 V c 0 t) (iblk1 V c 1 t) ((cfg1.win 2).xinj (grid1.coords t) j)
    = Cert.Gcn.scaleRows 3300000 16 (V c main_v39 : FVec Ideal S3300000x16 .f32) (V c main_v31 : FVec Ideal S3300000x1 .f32) (((cfg1.win 2).blk t).view.emb j)
  rw [hx, pay1_apply]
  unfold Cert.Gcn.scaleRows
  congr 1
  · refine iblk1_0_apply V c t _ _ _ ?_ ?_
    · show win1_2.index t 0 * 6000 + 1 * (j 0).val = t.val * 6000 + (j 0).val; rw [e4]; omega
    · show win1_2.index t 1 * 16 + 1 * (j 1).val = (j 1).val; rw [e5]; omega
  · refine iblk1_1_apply V c t _ _ _ ?_ ?_
    · show win1_2.index t 0 * 6000 + 1 * (j 0).val = t.val * 6000 + (j 0).val; rw [e4]; omega
    · rfl

/-- An index of the array is in point t's block iff each coordinate is in the block's range on its axis. -/
theorem mem_blk1 (t : Fin cfg1.N) (i : S3300000x16.Idx) :
    i ∈ ((cfg1.win 2).blk t).view.set ↔ ∀ a : Fin 2, win1_2.index t a * S6000x16.size a ≤ (i a).val ∧ (i a).val < win1_2.index t a * S6000x16.size a + S6000x16.size a := by
  show i ∈ ((View.whole main_v40).slice (win1_2.rect t)).set ↔ _
  rw [View.set_slice_whole, Rect.mem_set_unit]
  exact Iff.rfl

/-- The blocks tile the array: the index (r, q) lies in the block of the point r / 6000, and 3300000 = 550 · 6000. -/
theorem cover1 (i : S3300000x16.Idx) :
    ∃ t : Fin cfg1.N, (cfg1.win 2).flush t = true ∧ i ∈ ((cfg1.win 2).blk t).view.set := by
  have hi0 : (i 0).val < 3300000 := (i 0).isLt
  have hi1 : (i 1).val < 16 := (i 1).isLt
  have hN : cfg1.N = 550 := N_1
  refine ⟨⟨(i 0).val / 6000, by rw [hN]; omega⟩, flush1_2 _, ?_⟩
  rw [mem_blk1]
  obtain ⟨-, -, -, -, e4, e5⟩ := idx1 ⟨(i 0).val / 6000, by rw [hN]; omega⟩
  intro a
  match a with
  | ⟨0, _⟩ =>
    show win1_2.index _ (0 : Fin 2) * 6000 ≤ (i 0).val ∧ (i 0).val < win1_2.index _ (0 : Fin 2) * 6000 + 6000
    rw [e4]; show (i 0).val / 6000 * 6000 ≤ (i 0).val ∧ (i 0).val < (i 0).val / 6000 * 6000 + 6000; omega
  | ⟨1, _⟩ =>
    show win1_2.index _ (1 : Fin 2) * 16 ≤ (i 1).val ∧ (i 1).val < win1_2.index _ (1 : Fin 2) * 16 + 16
    rw [e5]; omega

theorem msg1_array (c : Dev nD) :
    (dat1 (F := Ideal) V c).arrAt 2 cfg1.N
      = Cert.Gcn.scaleRows 3300000 16 (V c main_v39 : FVec Ideal S3300000x16 .f32) (V c main_v31 : FVec Ideal S3300000x1 .f32) := by
  exact (dat1 (F := Ideal) V c).arrAt_eq_of_cover 2 _ (fun t _ => flushed1_eq V c t) cover1

end Cert.Gcn.K

end
-- ==== Proof.Region2.lean ====
/-
  The first layer's bias and rectifier, as a kernel over row blocks.

  At grid point t the kernel takes rows 5000·t … 5000·t + 4999 of the summed messages a [100000, 16] and the whole bias
  row b [1, 16], repeats the bias down the rows, adds, and takes the maximum with zero. Entry (p, q) of the block is
  max (a (p, q) + b (0, q)) 0 whatever block row p lies in, so what a point writes is its block of ONE function of the two
  arrays; the twenty blocks tile the 100000 rows.
-/
import proofs.«125452_j936302870865_1_alg».proof.Proof.Gen.KernelIdeal.Frame
import proofs.«125452_j936302870865_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.Gcn.K

open Cert.KernelIdeal Cert.KernelIdeal.Gen

variable (V : (c : Dev nD) → (b : Ref sig .tc) → Buf (Elt Ideal) ((c : Thread nD τ).loc b))

/-- The zero offsets, as a constant function. -/
theorem hz2 : (![0, 0] : Fin 2 → Nat) = fun _ => 0 := funext fun a => by fin_cases a <;> rfl

/-- The payload at an index: the block's entry plus the bias row's entry of the same column, then the rectifier. -/
theorem pay2_apply (x0 : Vec Ideal S5000x16 .f32) (x1 : Vec Ideal S1x16 .f32) (p : Fin 5000) (q : Fin 16) :
    k2_pay1 x0 x1 (ix2 p q) = max (x0 (ix2 p q) + x1 (ix2 (0 : Fin 1) q)) (Ideal.ofBits .f32 0x00000000#32) := by
  unfold k2_pay1
  rw [maximumf_apply, addf_apply, broadcast_apply, shapeCast_self, shapeCast_self, broadcastTo_1b_ab_apply]
  rfl

/-- The printed index maps over the grid: the two row-blocked windows sit at block row t, column block 0; the bias row at block (0, 0). -/
theorem idx_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Block t of the first operand is rows 5000 t … 5000 t + 4999 of its array. -/
theorem iblk2_0_apply (c : Dev nD) (t : Fin cfg2.N) (p : Fin 5000) (q : Fin 16) (k : S100000x16.Idx)
    (hk0 : (k 0).val = t.val * 5000 + p.val) (hk1 : (k 1).val = q.val) :
    (iblk2 V c 0 t : Vec Ideal S5000x16 .f32) (ix2 p q) = (V c main_v43 : FVec Ideal S100000x16 .f32) k := by
  obtain ⟨e0, e1, -⟩ := idx_facts2 t
  unfold iblk2
  rw [View.read_apply]
  show V c main_v43 _ = V c main_v43 _
  congr 1
  funext a; apply Fin.ext
  match a with
  | ⟨0, _⟩ => show win2_0.index t 0 * 5000 + 1 * p.val = (k 0).val; rw [e0, hk0]; omega
  | ⟨1, _⟩ => show win2_0.index t 1 * 16 + 1 * q.val = (k 1).val; rw [e1, hk1]; omega

/-- The bias row's block is the bias row, at every point. -/
theorem iblk2_1_apply (c : Dev nD) (t : Fin cfg2.N) (q : Fin 16) :
    (iblk2 V c 1 t : Vec Ideal S1x16 .f32) (ix2 (0 : Fin 1) q) = (V c main_v44 : FVec Ideal S1x16 .f32) (ix2 (0 : Fin 1) q) := by
  obtain ⟨-, -, e2, e3, -⟩ := idx_facts2 t
  unfold iblk2
  rw [View.read_apply]
  show V c main_v44 _ = V c main_v44 _
  congr 1
  funext a; apply Fin.ext
  match a with
  | ⟨0, _⟩ => show win2_1.index t 0 * 1 + 1 * (0 : Fin 1).val = (0 : Fin 1).val; rw [e2]; rfl
  | ⟨1, _⟩ => show win2_1.index t 1 * 16 + 1 * q.val = q.val; rw [e3]; omega

/-- The specification at an index whose column is q. -/
theorem biasRelu_at (a : FVec Ideal S100000x16 .f32) (b : FVec Ideal S1x16 .f32) (k : S100000x16.Idx) (q : Fin 16)
    (hk1 : (k 1).val = q.val) :
    Cert.Gcn.biasRelu 100000 16 a b k = max (a k + b (ix2 (0 : Fin 1) q)) (Ideal.ofBits .f32 0x00000000#32) := by
  have h : (k 1 : Fin 16) = q := Fin.ext hk1
  show max (a k + b (ix2 (0 : Fin 1) (k 1 : Fin 16))) _ = _
  rw [h]

/-- What point t writes back is block t of the specification of the two arrays as the region finds them. -/
theorem flushed2_eq (c : Dev nD) (t : Fin cfg2.N) :
    (dat2 (F := Ideal) V c).flushed 2 t = ((cfg2.win 2).blk t).view.read (Elt Ideal)
      (Cert.Gcn.biasRelu 100000 16 (V c main_v43 : FVec Ideal S100000x16 .f32) (V c main_v44 : FVec Ideal S1x16 .f32)) := by
  show (cfg2.win 2).cut (grid2.coords t) ((dat2 V c).after 2 t) = _
  rw [after2_2]
  unfold out2_2
  rw [View.canon_unit_zero hz2]
  simp only [View.ld_unit_zero (S := S5000x16) hz2, View.ld_unit_zero (S := S1x16) hz2]
  funext j
  obtain ⟨p, q, rfl⟩ : ∃ (p : Fin 5000) (q : Fin 16), j = ix2 p q := ⟨j 0, j 1, eq_ix2 j⟩
  obtain ⟨-, -, -, -, e4, e5⟩ := idx_facts2 t
  show k2_pay1 (iblk2 V c 0 t) (iblk2 V c 1 t) (ix2 p q)
    = Cert.Gcn.biasRelu 100000 16 (V c main_v43) (V c main_v44) (((cfg2.win 2).blk t).view.emb (ix2 p q))
  have hk0 : ((((cfg2.win 2).blk t).view.emb (ix2 p q) : S100000x16.Idx) 0).val = t.val * 5000 + p.val := by
    show win2_2.index t 0 * 5000 + 1 * p.val = _; rw [e4]; omega
  have hk1 : ((((cfg2.win 2).blk t).view.emb (ix2 p q) : S100000x16.Idx) 1).val = q.val := by
    show win2_2.index t 1 * 16 + 1 * q.val = _; rw [e5]; omega
  rw [pay2_apply, iblk2_0_apply V c t p q _ hk0 hk1, iblk2_1_apply, biasRelu_at _ _ _ q hk1]

/-- An index of the array is in point t's block iff each coordinate is in the block's range on its axis. -/
theorem mem_blk2 (t : Fin cfg2.N) (i : S100000x16.Idx) :
    i ∈ ((cfg2.win 2).blk t).view.set ↔ ∀ a : Fin 2, win2_2.index t a * S5000x16.size a ≤ (i a).val ∧ (i a).val < win2_2.index t a * S5000x16.size a + S5000x16.size a := by
  show i ∈ ((View.whole main_v45).slice (win2_2.rect t)).set ↔ _
  rw [View.set_slice_whole, Rect.mem_set_unit]
  exact Iff.rfl

/-- Every index of the array lies in the block of the point of its row divided by 5000: the twenty blocks tile the array. -/
theorem cover2 (i : S100000x16.Idx) :
    ∃ t : Fin cfg2.N, (cfg2.win 2).flush t = true ∧ i ∈ ((cfg2.win 2).blk t).view.set := by
  have hi0 : (i 0).val < 100000 := (i 0).isLt
  have hi1 : (i 1).val < 16 := (i 1).isLt
  have hN : cfg2.N = 20 := N_2
  have ht : (i 0).val / 5000 < cfg2.N := by rw [hN]; omega
  refine ⟨⟨(i 0).val / 5000, ht⟩, flush2_2 _, ?_⟩
  rw [mem_blk2]
  obtain ⟨-, -, -, -, e4, e5⟩ := idx_facts2 ⟨(i 0).val / 5000, ht⟩
  intro a
  match a with
  | ⟨0, _⟩ =>
    show win2_2.index ⟨(i 0).val / 5000, ht⟩ 0 * 5000 ≤ (i 0).val ∧ (i 0).val < win2_2.index ⟨(i 0).val / 5000, ht⟩ 0 * 5000 + 5000
    rw [e4]; show (i 0).val / 5000 * 5000 ≤ (i 0).val ∧ (i 0).val < (i 0).val / 5000 * 5000 + 5000; omega
  | ⟨1, _⟩ =>
    show win2_2.index ⟨(i 0).val / 5000, ht⟩ 1 * 16 ≤ (i 1).val ∧ (i 1).val < win2_2.index ⟨(i 0).val / 5000, ht⟩ 1 * 16 + 16
    rw [e5]; omega

theorem h1_array (c : Dev nD) :
    (dat2 (F := Ideal) V c).arrAt 2 cfg2.N
      = Cert.Gcn.biasRelu 100000 16 (V c main_v43 : FVec Ideal S100000x16 .f32) (V c main_v44 : FVec Ideal S1x16 .f32) :=
  (dat2 V c).arrAt_eq_of_cover 2 _ (fun t _ => flushed2_eq V c t) cover2

end Cert.Gcn.K

end
-- ==== Proof.Region3.lean ====
/-
  The second dense layer, as a kernel over row blocks.

  At grid point t the kernel takes rows 5000·t … 5000·t + 4999 of the rectified layer h [100000, 16] and the whole
  weight matrix W [16, 2], casts both to a narrower float format (the identity at the ideal values), multiplies them
  into a zero accumulator and writes the block of the same rows of the output. Entry (p, q) of that product is
  ∑ κ, h (p, κ) · W (κ, q) whatever block row p lies in; the twenty blocks tile the 100000 rows, so the output array ends
  holding the dense product of the arrays as the region found them.
-/
import proofs.«125452_j936302870865_1_alg».proof.Proof.Gen.KernelIdeal.Frame
import proofs.«125452_j936302870865_1_alg».proof.Proof.Spec
import proofs.«125452_j936302870865_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.Gcn.K

open Cert.KernelIdeal Cert.KernelIdeal.Gen

variable (V : (c : Dev nD) → (b : Ref sig .tc) → Buf (Elt Ideal) ((c : Thread nD τ).loc b))

/-- The zero offset of a whole-buffer access, as the constant function. -/
theorem lin2_hz : (![0, 0] : Fin 2 → Nat) = fun _ => 0 := funext fun a => by fin_cases a <;> rfl

/-- The index maps over the grid of 20 points: at point t the left operand's block is (t, 0), the weight's block is
    (0, 0) at every point (it is staged whole), and the result's block is (t, 0). -/
theorem lin2_idx : ∀ t : Fin cfg3.N, win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- The body's value at an entry: the left block's cast to its own shape is the identity, both operands pass the
    narrowing cast unchanged at the ideal values, and the product into the zero accumulator is the exact sum over
    the contracted axis, entry (p, q) = ∑ κ < 16, x0 (p, κ) · x1 (κ, q). -/
theorem lin2_pay (x0 : Vec Ideal S5000x16 .f32) (x1 : Vec Ideal S16x2 .f32) (p : Fin 5000) (q : Fin 2) :
    k3_pay1 x0 x1 (ix2 p q) = ∑ κ : Fin 16, x0 (ix2 p κ) * x1 (ix2 κ q) := by
  unfold k3_pay1
  rw [shapeCast_self]
  exact Cert.PlainDot.matmul_zero_apply (d := dot_S5000x16_S16x2_S5000x2_1_0_0_1_n_n) ⟨rfl, rfl, rfl, rfl, rfl, rfl⟩ rfl
    (by decide) none _ _ p q

/-- The body's value on the blocks of point t, at the block entry j, is the dense product of the whole arrays at the
    array entry under j: row 5000·t + j₀ of the left array is row j₀ of its block t, and the weight's only block is
    the weight. -/
theorem lin2_entry (c : Dev nD) (t : Fin cfg3.N) (j : S5000x2.Idx) :
    k3_pay1 (iblk3 V c 0 t) (iblk3 V c 1 t) j
      = Cert.Gcn.dense 100000 16 2 (V c main_v45 : FVec Ideal S100000x16 .f32) (V c main_arg4 : FVec Ideal S16x2 .f32)
          (((cfg3.win 2).blk t).view.emb j) := by
  obtain ⟨p, q, rfl⟩ : ∃ (p : Fin 5000) (q : Fin 2), j = ix2 p q := ⟨j 0, j 1, eq_ix2 j⟩
  obtain ⟨e00, e01, e10, e11, e20, e21⟩ := lin2_idx t
  rw [lin2_pay]
  unfold Cert.Gcn.dense
  refine Finset.sum_congr rfl fun κ _ => ?_
  have h0 : iblk3 V c 0 t (ix2 p κ) = V c main_v45 (ix2 (((cfg3.win 2).blk t).view.emb (ix2 p q) 0) κ) := by
    unfold iblk3
    rw [View.read_apply]
    show V c main_v45 _ = V c main_v45 _
    congr 1
    funext a
    apply Fin.ext
    match a with
    | ⟨0, _⟩ =>
      show win3_0.index t (0 : Fin 2) * 5000 + 1 * p.val = win3_2.index t (0 : Fin 2) * 5000 + 1 * p.val
      rw [e00, e20]
    | ⟨1, _⟩ => show win3_0.index t (1 : Fin 2) * 16 + 1 * κ.val = κ.val; rw [e01]; omega
  have h1 : iblk3 V c 1 t (ix2 κ q) = V c main_arg4 (ix2 κ (((cfg3.win 2).blk t).view.emb (ix2 p q) 1)) := by
    unfold iblk3
    rw [View.read_apply]
    show V c main_arg4 _ = V c main_arg4 _
    congr 1
    funext a
    apply Fin.ext
    match a with
    | ⟨0, _⟩ => show win3_1.index t (0 : Fin 2) * 16 + 1 * κ.val = κ.val; rw [e10]; omega
    | ⟨1, _⟩ =>
      show win3_1.index t (1 : Fin 2) * 2 + 1 * q.val = win3_2.index t (1 : Fin 2) * 2 + 1 * q.val
      rw [e11, e21]
  rw [h0, h1]

/-- What point t writes back is block t of the dense product of the whole arrays. -/
theorem lin2_flushed (c : Dev nD) (t : Fin cfg3.N) :
    (dat3 (F := Ideal) V c).flushed 2 t = ((cfg3.win 2).blk t).view.read (Elt Ideal)
      (Cert.Gcn.dense 100000 16 2 (V c main_v45 : FVec Ideal S100000x16 .f32) (V c main_arg4 : FVec Ideal S16x2 .f32)) := by
  show (cfg3.win 2).cut (grid3.coords t) ((dat3 (F := Ideal) V c).after 2 t) = _
  rw [after3_2]
  unfold out3_2
  rw [View.canon_unit_zero lin2_hz]
  simp only [View.ld_unit_zero (S := S5000x16) lin2_hz, View.ld_unit_zero (S := S16x2) lin2_hz]
  funext j
  exact lin2_entry V c t j

/-- An entry of the result array lies in point t's block iff each coordinate lies in the block's range on its axis. -/
theorem lin2_mem_blk (t : Fin cfg3.N) (i : S100000x2.Idx) :
    i ∈ ((cfg3.win 2).blk t).view.set ↔ ∀ a : Fin 2, win3_2.index t a * S5000x2.size a ≤ (i a).val
      ∧ (i a).val < win3_2.index t a * S5000x2.size a + S5000x2.size a := by
  show i ∈ ((View.whole main_v46).slice (win3_2.rect t)).set ↔ _
  rw [View.set_slice_whole, Rect.mem_set_unit]
  exact Iff.rfl

/-- The 20 row blocks of 5000 rows tile the 100000 rows: entry (r, q) lies in the block of point r / 5000. -/
theorem lin2_cover (i : S100000x2.Idx) :
    ∃ t : Fin cfg3.N, (cfg3.win 2).flush t = true ∧ i ∈ ((cfg3.win 2).blk t).view.set := by
  have hi0 : (i 0).val < 100000 := (i 0).isLt
  have hi1 : (i 1).val < 2 := (i 1).isLt
  have hN : cfg3.N = 20 := N_3
  obtain ⟨t, ht⟩ : ∃ t : Fin cfg3.N, t.val = (i 0).val / 5000 := ⟨⟨(i 0).val / 5000, by rw [hN]; omega⟩, rfl⟩
  obtain ⟨-, -, -, -, e20, e21⟩ := lin2_idx t
  refine ⟨t, flush3_2 t, ?_⟩
  rw [lin2_mem_blk]
  intro a
  match a with
  | ⟨0, _⟩ =>
    show win3_2.index t (0 : Fin 2) * 5000 ≤ (i 0).val ∧ (i 0).val < win3_2.index t (0 : Fin 2) * 5000 + 5000
    rw [e20, ht]; omega
  | ⟨1, _⟩ =>
    show win3_2.index t (1 : Fin 2) * 2 ≤ (i 1).val ∧ (i 1).val < win3_2.index t (1 : Fin 2) * 2 + 2
    rw [e21]; omega

theorem lin2_array (c : Dev nD) :
    (dat3 (F := Ideal) V c).arrAt 2 cfg3.N
      = Cert.Gcn.dense 100000 16 2 (V c main_v45 : FVec Ideal S100000x16 .f32) (V c main_arg4 : FVec Ideal S16x2 .f32) :=
  (dat3 (F := Ideal) V c).arrAt_eq_of_cover 2 _ (fun t _ => lin2_flushed V c t) lin2_cover

end Cert.Gcn.K

end
-- ==== Proof.Region4.lean ====
/-
  The second layer's edge weighting, as a kernel over row blocks.

  At grid point t the kernel takes rows 6000·t … 6000·t + 5999 of the gathered rows g [3300000, 2] and the same rows of
  the weight column ν [3300000, 1], repeats each weight along its row and multiplies entry by entry. Entry (e, q) of the
  block is g (e, q) · ν (e, 0) whatever block edge e lies in; the 550 blocks tile the 3300000 rows, so the output array
  ends holding every row scaled by its own weight.
-/
import proofs.«125452_j936302870865_1_alg».proof.Proof.Gen.KernelIdeal.Frame
import proofs.«125452_j936302870865_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.Gcn.K

open Cert.KernelIdeal Cert.KernelIdeal.Gen

variable (V : (c : Dev nD) → (b : Ref sig .tc) → Buf (Elt Ideal) ((c : Thread nD τ).loc b))

/-- The zero offsets of a whole-block access, as a constant function. -/
theorem hz4 : (![0, 0] : Fin 2 → Nat) = fun _ => 0 := funext fun a => by fin_cases a <;> rfl

/-- The body's arithmetic at an index: entry (p, q) of the result is entry (p, q) of the block of g times entry
    (p, 0) of the block of the column ν, the column broadcast along the row. -/
theorem pay4_apply (x0 : Vec Ideal S6000x2 .f32) (x1 : Vec Ideal S6000x1 .f32) (p : Fin 6000) (q : Fin 2) :
    k4_pay1 x0 x1 (ix2 p q) = x0 (ix2 p q) * x1 (ix2 p 0) := by
  unfold k4_pay1
  rw [mulf_apply, shapeCast_self, shapeCast_self]
  congr 1
  refine broadcastTo_apply _ _ _ (ix2 p 0) ?_
  intro a
  match a with
  | ⟨0, _⟩ => rfl
  | ⟨1, _⟩ => rfl

/-- The index maps at the grid's t-th point: all three windows sit at block row t, block column 0 (the grid has
    one axis of 550 points, so the point's coordinate is t itself, and t fits a 32-bit word). -/
theorem idx4 (t : Fin cfg4.N) :
    win4_0.index t (0 : Fin 2) = t.val ∧ win4_0.index t (1 : Fin 2) = 0
    ∧ win4_1.index t (0 : Fin 2) = t.val ∧ win4_1.index t (1 : Fin 2) = 0
    ∧ win4_2.index t (0 : Fin 2) = t.val ∧ win4_2.index t (1 : Fin 2) = 0 := by
  have ht : t.val < 550 := Nat.lt_of_lt_of_eq t.isLt N_4
  have h : ((grid4.coords t) 0).val = t.val := by
    show t.val / grid4.stride 0 % 550 = t.val
    rw [show grid4.stride 0 = 1 from by decide, Nat.div_one, Nat.mod_eq_of_lt ht]
  have e : (BitVec.ofNat 32 ((grid4.coords t) 0).val).toNat = t.val := by
    rw [h, BitVec.toNat_ofNat]; omega
  exact ⟨e, rfl, e, rfl, e, rfl⟩

/-- The block of g at point t is rows 6000 t … 6000 t + 5999 of g. -/
theorem iblk4_0_apply (c : Dev nD) (t : Fin cfg4.N) (p : Fin 6000) (q : Fin 2) (k : S3300000x2.Idx)
    (hk0 : (k 0).val = t.val * 6000 + p.val) (hk1 : (k 1).val = q.val) :
    (iblk4 V c 0 t : Vec Ideal S6000x2 .f32) (ix2 p q) = (V c main_v53 : FVec Ideal S3300000x2 .f32) k := by
  obtain ⟨e0, e1, -⟩ := idx4 t
  unfold iblk4
  rw [View.read_apply]
  show (V c main_v53 : FVec Ideal S3300000x2 .f32) _ = _
  congr 1
  funext a
  apply Fin.ext
  match a with
  | ⟨0, _⟩ => show win4_0.index t 0 * 6000 + 1 * p.val = (k 0).val; rw [e0, hk0]; omega
  | ⟨1, _⟩ => show win4_0.index t 1 * 2 + 1 * q.val = (k 1).val; rw [e1, hk1]; omega

/-- The block of ν at point t is rows 6000 t … 6000 t + 5999 of the column ν. -/
theorem iblk4_1_apply (c : Dev nD) (t : Fin cfg4.N) (p : Fin 6000) (q : Fin 1) (k : S3300000x1.Idx)
    (hk0 : (k 0).val = t.val * 6000 + p.val) (hk1 : (k 1).val = q.val) :
    (iblk4 V c 1 t : Vec Ideal S6000x1 .f32) (ix2 p q) = (V c main_v31 : FVec Ideal S3300000x1 .f32) k := by
  obtain ⟨-, -, e2, e3, -⟩ := idx4 t
  unfold iblk4
  rw [View.read_apply]
  show (V c main_v31 : FVec Ideal S3300000x1 .f32) _ = _
  congr 1
  funext a
  apply Fin.ext
  match a with
  | ⟨0, _⟩ => show win4_1.index t 0 * 6000 + 1 * p.val = (k 0).val; rw [e2, hk0]; omega
  | ⟨1, _⟩ => show win4_1.index t 1 * 1 + 1 * q.val = (k 1).val; rw [e3, hk1]; omega

/-- What point t writes back is block t of the row-scaled array: at the block's entry (p, q), which is the array's
    entry (6000 t + p, q), the body multiplied g (6000 t + p, q) by ν (6000 t + p, 0). -/
theorem flushed4_eq (c : Dev nD) (t : Fin cfg4.N) :
    (dat4 (F := Ideal) V c).flushed 2 t = ((cfg4.win 2).blk t).view.read (Elt Ideal)
      (Cert.Gcn.scaleRows 3300000 2 (V c main_v53 : FVec Ideal S3300000x2 .f32) (V c main_v31 : FVec Ideal S3300000x1 .f32)) := by
  show (cfg4.win 2).cut (grid4.coords t) ((dat4 V c).after 2 t) = _
  rw [after4_2]
  unfold out4_2
  rw [View.canon_unit_zero hz4]
  simp only [View.ld_unit_zero (S := S6000x2) hz4, View.ld_unit_zero (S := S6000x1) hz4]
  obtain ⟨e0, e1, e2, e3, e4, e5⟩ := idx4 t
  funext j
  have hj0 : (j 0).val < 6000 := (j 0).isLt
  have hj1 : (j 1).val < 2 := (j 1).isLt
  have hx : (cfg4.win 2).xinj (grid4.coords t) j = ix2 (⟨(j 0).val, hj0⟩ : Fin 6000) (⟨(j 1).val, hj1⟩ : Fin 2) :=
    funext fun a => by match a with | ⟨0, _⟩ => rfl | ⟨1, _⟩ => rfl
  show k4_pay1 (iblk4 V c 0 t) (iblk4 V c 1 t) ((cfg4.win 2).xinj (grid4.coords t) j)
    = Cert.Gcn.scaleRows 3300000 2 (V c main_v53 : FVec Ideal S3300000x2 .f32) (V c main_v31 : FVec Ideal S3300000x1 .f32) (((cfg4.win 2).blk t).view.emb j)
  rw [hx, pay4_apply]
  unfold Cert.Gcn.scaleRows
  congr 1
  · refine iblk4_0_apply V c t _ _ _ ?_ ?_
    · show win4_2.index t 0 * 6000 + 1 * (j 0).val = t.val * 6000 + (j 0).val; rw [e4]; omega
    · show win4_2.index t 1 * 2 + 1 * (j 1).val = (j 1).val; rw [e5]; omega
  · refine iblk4_1_apply V c t _ _ _ ?_ ?_
    · show win4_2.index t 0 * 6000 + 1 * (j 0).val = t.val * 6000 + (j 0).val; rw [e4]; omega
    · rfl

/-- An index of the array is in point t's block iff each coordinate is in the block's range on its axis. -/
theorem mem_blk4 (t : Fin cfg4.N) (i : S3300000x2.Idx) :
    i ∈ ((cfg4.win 2).blk t).view.set ↔ ∀ a : Fin 2, win4_2.index t a * S6000x2.size a ≤ (i a).val ∧ (i a).val < win4_2.index t a * S6000x2.size a + S6000x2.size a := by
  show i ∈ ((View.whole main_v54).slice (win4_2.rect t)).set ↔ _
  rw [View.set_slice_whole, Rect.mem_set_unit]
  exact Iff.rfl

/-- The blocks tile the array: the index (r, q) lies in the block of the point r / 6000, and 3300000 = 550 · 6000. -/
theorem cover4 (i : S3300000x2.Idx) :
    ∃ t : Fin cfg4.N, (cfg4.win 2).flush t = true ∧ i ∈ ((cfg4.win 2).blk t).view.set := by
  have hi0 : (i 0).val < 3300000 := (i 0).isLt
  have hi1 : (i 1).val < 2 := (i 1).isLt
  have hN : cfg4.N = 550 := N_4
  refine ⟨⟨(i 0).val / 6000, by rw [hN]; omega⟩, flush4_2 _, ?_⟩
  rw [mem_blk4]
  obtain ⟨-, -, -, -, e4, e5⟩ := idx4 ⟨(i 0).val / 6000, by rw [hN]; omega⟩
  intro a
  match a with
  | ⟨0, _⟩ =>
    show win4_2.index _ (0 : Fin 2) * 6000 ≤ (i 0).val ∧ (i 0).val < win4_2.index _ (0 : Fin 2) * 6000 + 6000
    rw [e4]; show (i 0).val / 6000 * 6000 ≤ (i 0).val ∧ (i 0).val < (i 0).val / 6000 * 6000 + 6000; omega
  | ⟨1, _⟩ =>
    show win4_2.index _ (1 : Fin 2) * 2 ≤ (i 1).val ∧ (i 1).val < win4_2.index _ (1 : Fin 2) * 2 + 2
    rw [e5]; omega

theorem msg2_array (c : Dev nD) :
    (dat4 (F := Ideal) V c).arrAt 2 cfg4.N
      = Cert.Gcn.scaleRows 3300000 2 (V c main_v53 : FVec Ideal S3300000x2 .f32) (V c main_v31 : FVec Ideal S3300000x1 .f32) := by
  exact (dat4 (F := Ideal) V c).arrAt_eq_of_cover 2 _ (fun t _ => flushed4_eq V c t) cover4

end Cert.Gcn.K

end
-- ==== Proof.Region5.lean ====
/-
  The second layer's bias and the logarithm of the softmax, as a kernel over row blocks.

  At grid point t the kernel takes rows 5000·t … 5000·t + 4999 of the summed messages a [100000, 2] and the whole bias
  row b [1, 2], adds the bias down the rows, and then along each row of two entries takes the maximum from −∞, shifts
  the row by it, sums the two exponentials from zero, and subtracts the logarithm of the sum from the shifted row.
  With z = a (p, ·) + b (0, ·) and μ = max (z 0) (z 1), entry (p, q) is (z q − μ) − log (exp (z 0 − μ) + exp (z 1 − μ))
  whatever block row p lies in: a maximum against −∞ is the other operand, and a fold or a sum over two entries is
  the two entries combined. The twenty blocks tile the 100000 rows.
-/
import proofs.«125452_j936302870865_1_alg».proof.Proof.Gen.KernelIdeal.Frame
import proofs.«125452_j936302870865_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem Idealize.ShloMosaic.ValueIdx
open Idealize.ShloMosaic.Pipeline (Dat)

namespace Cert.Gcn.K

open Cert.KernelIdeal Cert.KernelIdeal.Gen

variable (V : (c : Dev nD) → (b : Ref sig .tc) → Buf (Elt Ideal) ((c : Thread nD τ).loc b))

/-- The maximum of a family over two indices, folded from the least element. -/
theorem lsm_fold_max_two (f : Fin 2 → EReal) : (Finset.univ : Finset (Fin 2)).fold max ⊥ f = max (f 0) (f 1) := by
  rw [show (Finset.univ : Finset (Fin 2)) = {0, 1} from rfl, Finset.fold_insert (by decide), Finset.fold_singleton, max_bot_right]

theorem lsm_neg_inf : Ideal.ofBits .f32 0xFF800000#32 = ⊥ := by simp [Ideal.ofBits, Ideal.ieee]

/-- The lane maximum of a row of two entries. -/
theorem lsm_rowMax (v : FVec Ideal S5000x2 .f32) (h : S5000x2.Reduces [1] S5000) (hφ : FKind.Formats .f32)
    (hacc : (0xFF800000#32 : BitVec 32) = FKind.maximumf.neutral .f32 hφ) (p : Fin 5000) :
    multiReduction .maximumf [1] S5000 v 0xFF800000#32 h hφ hacc (ix1 p) = max (v (ix2 p 0)) (v (ix2 p 1)) := by
  refine (Ideal.multiReduction_maximumf_single v _ h hφ hacc (ix1 p)).trans ?_
  show (Finset.univ : Finset (Fin 2)).fold max (Ideal.ofBits .f32 0xFF800000#32) (v ∘ h.lift (ix1 p)) = _
  rw [lsm_neg_inf]
  refine (lsm_fold_max_two (fun k : Fin 2 => v (h.lift (ix1 p) k))).trans ?_
  have e0 : h.lift (ix1 p) (0 : Fin 2) = ix2 p 0 := funext fun a => Fin.ext (by match a with | ⟨0, _⟩ => rfl | ⟨1, _⟩ => rfl)
  have e1 : h.lift (ix1 p) (1 : Fin 2) = ix2 p 1 := funext fun a => Fin.ext (by match a with | ⟨0, _⟩ => rfl | ⟨1, _⟩ => rfl)
  show max (v (h.lift (ix1 p) (0 : Fin 2))) (v (h.lift (ix1 p) (1 : Fin 2))) = _
  rw [e0, e1]

/-- The lane sum of a row of two entries. -/
theorem lsm_rowSum (v : FVec Ideal S5000x2 .f32) (h : S5000x2.Reduces [1] S5000) (hφ : FKind.Formats .f32)
    (hacc : (0x00000000#32 : BitVec 32) = FKind.add.neutral .f32 hφ) (p : Fin 5000) :
    multiReduction .add [1] S5000 v 0x00000000#32 h hφ hacc (ix1 p) = v (ix2 p 0) + v (ix2 p 1) := by
  refine (Ideal.multiReduction_add_single v _ h hφ hacc (ix1 p)).trans ?_
  show ∑ k : Fin 2, v (h.lift (ix1 p) k) = _
  have e0 : h.lift (ix1 p) (0 : Fin 2) = ix2 p 0 := funext fun a => Fin.ext (by match a with | ⟨0, _⟩ => rfl | ⟨1, _⟩ => rfl)
  have e1 : h.lift (ix1 p) (1 : Fin 2) = ix2 p 1 := funext fun a => Fin.ext (by match a with | ⟨0, _⟩ => rfl | ⟨1, _⟩ => rfl)
  rw [Fin.sum_univ_two, e0, e1]

section Layout
variable {α : Type}

/-- A column [a] cast to [a, 1] reads, at (p, r), the column at p. -/
theorem lsm_cast_col {a : ℕ} (x : (⟨1, ![a]⟩ : Shape).Idx → α) (h : (⟨1, ![a]⟩ : Shape).ShapeCasts ⟨2, ![a, 1]⟩)
    (p : Fin a) (r : Fin 1) : shapeCast ⟨2, ![a, 1]⟩ x h (ix2 p r) = x (ix1 p) :=
  shapeCast_apply x h _ _ (by
    have hr : r.val = 0 := by omega
    rw [Shape.rowMajor_val_two, Shape.rowMajor_val_one]
    show p.val = p.val * 1 + r.val
    rw [hr, Nat.mul_one, Nat.add_zero])

/-- A column [a, 1] broadcast to [a, 2] reads, at (p, q), the column at (p, 0). -/
theorem lsm_bcast_col {a : ℕ} (ha : a ≠ 1) (v : (⟨2, ![a, 1]⟩ : Shape).Idx → α) (h : (⟨2, ![a, 1]⟩ : Shape).Broadcasts ⟨2, ![a, 2]⟩)
    (p : Fin a) (q : Fin 2) : broadcastTo ⟨2, ![a, 2]⟩ v h (ix2 p q) = v (ix2 p (0 : Fin 1)) := by
  refine broadcastTo_apply v h (ix2 p q) (ix2 p (0 : Fin 1)) fun ax => ?_
  match ax with
  | ⟨0, _⟩ =>
    show p.val = if a = 1 then 0 else p.val
    rw [if_neg ha]
  | ⟨1, _⟩ => rfl

end Layout

/-- The shifted logarithm of the softmax along rows of two entries, read at (p, q): with μ the larger of the row's two
    entries, (z (p, q) - μ) - log (exp (z (p, 0) - μ) + exp (z (p, 1) - μ)). -/
theorem lsm_core (z : FVec Ideal S5000x2 .f32) (hr : S5000x2.Reduces [1] S5000) (hφ : FKind.Formats .f32)
    (hmax : (0xFF800000#32 : BitVec 32) = FKind.maximumf.neutral .f32 hφ)
    (hadd : (0x00000000#32 : BitVec 32) = FKind.add.neutral .f32 hφ)
    (hc : S5000.ShapeCasts S5000x1) (hb : S5000x1.Broadcasts S5000x2) (p : Fin 5000) (q : Fin 2) :
    subf (subf z (broadcastTo S5000x2 (shapeCast S5000x1 (multiReduction .maximumf [1] S5000 z 0xFF800000#32 hr hφ hmax) hc) hb))
        (broadcastTo S5000x2 (log (shapeCast S5000x1 (multiReduction .add [1] S5000
          (exp (subf z (broadcastTo S5000x2 (shapeCast S5000x1 (multiReduction .maximumf [1] S5000 z 0xFF800000#32 hr hφ hmax) hc) hb)))
          0x00000000#32 hr hφ hadd) hc)) hb) (ix2 p q)
      = (z (ix2 p q) - max (z (ix2 p 0)) (z (ix2 p 1)))
        - Ideal.log (Ideal.exp (z (ix2 p 0) - max (z (ix2 p 0)) (z (ix2 p 1))) + Ideal.exp (z (ix2 p 1) - max (z (ix2 p 0)) (z (ix2 p 1)))) := by
  have hM : ∀ q' : Fin 2, broadcastTo S5000x2 (shapeCast S5000x1 (multiReduction .maximumf [1] S5000 z 0xFF800000#32 hr hφ hmax) hc) hb (ix2 p q')
      = max (z (ix2 p 0)) (z (ix2 p 1)) := fun q' =>
    (lsm_bcast_col (by decide) _ hb p q').trans ((lsm_cast_col _ hc p 0).trans (lsm_rowMax z hr hφ hmax p))
  rw [subf_apply, subf_apply, hM q]
  refine congrArg (fun t => (z (ix2 p q) - max (z (ix2 p 0)) (z (ix2 p 1))) - t) ?_
  refine (lsm_bcast_col (by decide) _ hb p q).trans ?_
  refine (congrArg Ideal.log ((lsm_cast_col _ hc p 0).trans (lsm_rowSum _ hr hφ hadd p))).trans ?_
  show Ideal.log (Ideal.exp (z (ix2 p 0) - _) + Ideal.exp (z (ix2 p 1) - _)) = _
  rw [hM 0, hM 1]

/-- The bias row added to a block, read at (p, q). -/
theorem lsm_biased (x0 : Vec Ideal S5000x2 .f32) (x1 : Vec Ideal S1x2 .f32) (h0 : S5000x2.ShapeCasts S5000x2) (h1 : S1x2.ShapeCasts S1x2)
    (hb : S1x2.Broadcasts S5000x2) (p : Fin 5000) (q : Fin 2) :
    (addf (shapeCast S5000x2 x0 h0) (broadcastTo S5000x2 (shapeCast S1x2 x1 h1) hb) : FVec Ideal S5000x2 .f32) (ix2 p q)
      = x0 (ix2 p q) + x1 (ix2 0 q) := by
  rw [addf_apply, shapeCast_self, shapeCast_self]
  exact congrArg (fun t => x0 (ix2 p q) + t) (broadcastTo_1b_ab_apply x1 hb p q)

/-- The payload at (p, q): with z q = x0 (p, q) + x1 (0, q) and μ the larger of z 0 and z 1, it is
    (z q - μ) - log (exp (z 0 - μ) + exp (z 1 - μ)). -/
theorem pay5_apply (x0 : Vec Ideal S5000x2 .f32) (x1 : Vec Ideal S1x2 .f32) (p : Fin 5000) (q : Fin 2) :
    (k5_pay1 x0 x1 : FVec Ideal S5000x2 .f32) (ix2 p q)
      = ((x0 (ix2 p q) + x1 (ix2 0 q)) - max (x0 (ix2 p 0) + x1 (ix2 0 0)) (x0 (ix2 p 1) + x1 (ix2 0 1)))
        - Ideal.log (Ideal.exp ((x0 (ix2 p 0) + x1 (ix2 0 0)) - max (x0 (ix2 p 0) + x1 (ix2 0 0)) (x0 (ix2 p 1) + x1 (ix2 0 1)))
            + Ideal.exp ((x0 (ix2 p 1) + x1 (ix2 0 1)) - max (x0 (ix2 p 0) + x1 (ix2 0 0)) (x0 (ix2 p 1) + x1 (ix2 0 1)))) := by
  unfold k5_pay1
  dsimp only
  refine (lsm_core _ _ _ _ _ _ _ p q).trans ?_
  rw [lsm_biased, lsm_biased, lsm_biased]

theorem hz5 : (![0, 0] : Fin 2 → Nat) = fun _ => 0 := funext fun a => by fin_cases a <;> rfl

/-- The printed index maps over the grid: the two tiled windows at block row t, column 0; the bias at block (0, 0). -/
theorem idx5 : ∀ t : Fin cfg5.N, win5_0.index t (0 : Fin 2) = t.val ∧ win5_0.index t (1 : Fin 2) = 0
    ∧ win5_1.index t (0 : Fin 2) = 0 ∧ win5_1.index t (1 : Fin 2) = 0
    ∧ win5_2.index t (0 : Fin 2) = t.val ∧ win5_2.index t (1 : Fin 2) = 0 :=
  (by decide +kernel : ∀ t : Fin grid5.N, _)

/-- The payload of a block of rows n·5000 … n·5000 + 4999 of a and of the whole bias row is that block of the
    specification. -/
theorem block5_eq (A : FVec Ideal S100000x2 .f32) (B : FVec Ideal S1x2 .f32) (x0 : Vec Ideal S5000x2 .f32) (x1 : Vec Ideal S1x2 .f32)
    (n : ℕ) (hn : n < 20)
    (h0 : ∀ (p : Fin 5000) (q : Fin 2), x0 (ix2 p q) = A (ix2 (⟨n * 5000 + p.val, by omega⟩ : Fin 100000) q))
    (h1 : ∀ q : Fin 2, x1 (ix2 (0 : Fin 1) q) = B (ix2 (0 : Fin 1) q)) (p : Fin 5000) (q : Fin 2) :
    (k5_pay1 x0 x1 : FVec Ideal S5000x2 .f32) (ix2 p q)
      = Cert.Gcn.biasLogSoftmax2 100000 A B (ix2 (⟨n * 5000 + p.val, by omega⟩ : Fin 100000) q) := by
  rw [pay5_apply]
  simp only [h0, h1]
  rfl

theorem flushed5_eq (c : Dev nD) (t : Fin cfg5.N) :
    (dat5 (F := Ideal) V c).flushed 2 t = ((cfg5.win 2).blk t).view.read (Elt Ideal)
      (Cert.Gcn.biasLogSoftmax2 100000 (V c main_v57 : FVec Ideal S100000x2 .f32) (V c main_v58 : FVec Ideal S1x2 .f32)) := by
  show (cfg5.win 2).cut (grid5.coords t) ((dat5 V c).after 2 t) = _
  rw [after5_2]
  unfold out5_2
  rw [View.canon_unit_zero hz5]
  simp only [View.ld_unit_zero (S := S5000x2) hz5, View.ld_unit_zero (S := S1x2) hz5]
  obtain ⟨e0, e1, e2, e3, e4, e5⟩ := idx5 t
  have ht : t.val < 20 := Nat.lt_of_lt_of_eq t.isLt N_5
  have h0 : ∀ (p : Fin 5000) (q : Fin 2), (iblk5 V c 0 t : Vec Ideal S5000x2 .f32) (ix2 p q)
      = (V c main_v57 : FVec Ideal S100000x2 .f32) (ix2 (⟨t.val * 5000 + p.val, by omega⟩ : Fin 100000) q) := by
    intro p q
    unfold iblk5
    rw [View.read_apply]
    show (V c main_v57 : FVec Ideal S100000x2 .f32) _ = _
    congr 1
    funext a; apply Fin.ext
    match a with
    | ⟨0, _⟩ => show win5_0.index t (0 : Fin 2) * 5000 + 1 * p.val = t.val * 5000 + p.val; rw [e0]; omega
    | ⟨1, _⟩ => show win5_0.index t (1 : Fin 2) * 2 + 1 * q.val = q.val; rw [e1]; omega
  have h1 : ∀ q : Fin 2, (iblk5 V c 1 t : Vec Ideal S1x2 .f32) (ix2 (0 : Fin 1) q)
      = (V c main_v58 : FVec Ideal S1x2 .f32) (ix2 (0 : Fin 1) q) := by
    intro q
    unfold iblk5
    rw [View.read_apply]
    show (V c main_v58 : FVec Ideal S1x2 .f32) _ = _
    congr 1
    funext a; apply Fin.ext
    match a with
    | ⟨0, _⟩ => show win5_1.index t (0 : Fin 2) * 1 + 1 * 0 = 0; rw [e2]
    | ⟨1, _⟩ => show win5_1.index t (1 : Fin 2) * 2 + 1 * q.val = q.val; rw [e3]; omega
  funext j
  obtain ⟨p, q, rfl⟩ : ∃ (p : Fin 5000) (q : Fin 2), j = ix2 p q := ⟨j 0, j 1, eq_ix2 j⟩
  refine (block5_eq _ _ _ _ t.val ht h0 h1 p q).trans ?_
  rw [View.read_apply]
  refine congrArg (Cert.Gcn.biasLogSoftmax2 100000 (V c main_v57 : FVec Ideal S100000x2 .f32) (V c main_v58 : FVec Ideal S1x2 .f32)) ?_
  funext a; apply Fin.ext
  match a with
  | ⟨0, _⟩ => show t.val * 5000 + p.val = win5_2.index t (0 : Fin 2) * 5000 + 1 * p.val; rw [e4]; omega
  | ⟨1, _⟩ => show q.val = win5_2.index t (1 : Fin 2) * 2 + 1 * q.val; rw [e5]; omega

/-- Every index of the output array lies in the block of the point (row / 5000). -/
theorem cover5 (i : S100000x2.Idx) : ∃ t : Fin cfg5.N, (cfg5.win 2).flush t = true ∧ i ∈ ((cfg5.win 2).blk t).view.set := by
  have hi0 : (i 0).val < 100000 := (i 0).isLt
  have hi1 : (i 1).val < 2 := (i 1).isLt
  have hN : cfg5.N = 20 := N_5
  obtain ⟨t, ht⟩ : ∃ t : Fin cfg5.N, t.val = (i 0).val / 5000 := ⟨⟨(i 0).val / 5000, by rw [hN]; omega⟩, rfl⟩
  obtain ⟨e0, e1, e2, e3, e4, e5⟩ := idx5 t
  refine ⟨t, flush5_2 t, ?_⟩
  show i ∈ ((View.whole main_v59).slice (win5_2.rect t)).set
  rw [View.set_slice_whole, Rect.mem_set_unit]
  intro a
  match a with
  | ⟨0, _⟩ =>
    show win5_2.index t (0 : Fin 2) * 5000 ≤ (i 0).val ∧ (i 0).val < win5_2.index t (0 : Fin 2) * 5000 + 5000
    rw [e4, ht]; omega
  | ⟨1, _⟩ =>
    show win5_2.index t (1 : Fin 2) * 2 ≤ (i 1).val ∧ (i 1).val < win5_2.index t (1 : Fin 2) * 2 + 2
    rw [e5]; omega

theorem out_array (c : Dev nD) :
    (dat5 (F := Ideal) V c).arrAt 2 cfg5.N
      = Cert.Gcn.biasLogSoftmax2 100000 (V c main_v57 : FVec Ideal S100000x2 .f32) (V c main_v58 : FVec Ideal S1x2 .f32) :=
  (dat5 V c).arrAt_eq_of_cover 2 _ (fun t _ => flushed5_eq V c t) cover5

end Cert.Gcn.K

end
-- ==== Proof.RefStages.lean ====
/-
  The reference, stage by stage, against the layer's four entrywise stages.

  The host program computes a layer as: the dense product (one contraction), a gather of rows, the rows times the edge
  weights broadcast along each row, a scatter-sum, the bias broadcast down the rows, and then the rectifier
  (first layer) or the shifted logarithm of the softmax (second layer). Read at an entry, each of these is the
  matching function of Spec.lean. The edge weights are a function of the edge list alone, and the host computes
  them once per layer: the two computations are the same term. A column [n, 1] or a row [1, n] made from a vector
  is taken here as ANY array with the vector's entries, so that a reshape and a broadcast of the vector both fit.
-/
import proofs.«125452_j936302870865_1_alg».proof.Proof.RefRead
import proofs.«125452_j936302870865_1_alg».proof.Proof.Spec
import proofs.«125452_j936302870865_1_alg».proof.Proof.LibPlainDot
import Idealize.ShloMosaic.Lib.Pipeline.Value
import Idealize.ShloMosaic.Lib.ValueIdx
import Idealize.ShloMosaic.PureOps.Ideal.Laws
import Idealize.ShloMosaic.PureOps.Reduce

noncomputable section

open Idealize.ShloMosaic Idealize.ShloMosaic.ValueIdx

namespace Cert.Gcn.R

open Cert.ReferenceIdeal Cert.ReferenceIdeal.Read

/-- The edge weights of the second layer are those of the first: the same operations of the edge list. -/
theorem norm_twice {F : FTy → Type} [FloatOps F] (x1 : (⟨S2x3200000, .i32⟩ : BufTy).Contents (Elt F)) :
    val_main_v72 (F := F) x1 = val_main_v30 (F := F) x1 := rfl

variable (x0 : (⟨S100000x3, .f32⟩ : BufTy).Contents (Elt Ideal)) (x1 : (⟨S2x3200000, .i32⟩ : BufTy).Contents (Elt Ideal))
  (x2 : (⟨S3x16, .f32⟩ : BufTy).Contents (Elt Ideal)) (x3 : (⟨S16, .f32⟩ : BufTy).Contents (Elt Ideal))
  (x4 : (⟨S16x2, .f32⟩ : BufTy).Contents (Elt Ideal)) (x5 : (⟨S2, .f32⟩ : BufTy).Contents (Elt Ideal))

/-- The first dense product. -/
theorem ref_lin1 : val_main_v31 (F := Ideal) x0 x2 = Cert.Gcn.dense 100000 3 16 x0 x2 := by
  funext i
  obtain ⟨p, q, rfl⟩ : ∃ (p : Fin 100000) (q : Fin 16), i = ix2 p q := ⟨i 0, i 1, eq_ix2 i⟩
  unfold val_main_v31
  exact Cert.PlainDot.dotGeneral_apply (d := dot_S100000x3_S3x16_S100000x16_1_0_0_1_n_n) ⟨rfl, rfl, rfl, rfl, rfl, rfl⟩ rfl rfl none x0 x2 p q

/-- The second dense product. -/
theorem ref_lin2 : val_main_v73 (F := Ideal) x0 x1 x2 x3 x4 = Cert.Gcn.dense 100000 16 2 (val_main_v48 (F := Ideal) x0 x1 x2 x3) x4 := by
  funext i
  obtain ⟨p, q, rfl⟩ : ∃ (p : Fin 100000) (q : Fin 2), i = ix2 p q := ⟨i 0, i 1, eq_ix2 i⟩
  unfold val_main_v73
  exact Cert.PlainDot.dotGeneral_apply (d := dot_S100000x16_S16x2_S100000x2_1_0_0_1_n_n) ⟨rfl, rfl, rfl, rfl, rfl, rfl⟩ rfl rfl none _ x4 p q

/-- The first layer's messages: the gathered rows times the edge weights, the weights given as any column with the
    weight vector's entries. -/
theorem ref_msg1 (ν : FVec Ideal S3300000x1 .f32) (hν : ∀ e : Fin 3300000, ν (ix2 e 0) = val_main_v30 (F := Ideal) x1 (ix1 e)) :
    val_main_v41 (F := Ideal) x0 x1 x2 = Cert.Gcn.scaleRows 3300000 16 (val_main_v38 (F := Ideal) x0 x1 x2) ν := by
  funext i
  obtain ⟨e, q, rfl⟩ : ∃ (e : Fin 3300000) (q : Fin 16), i = ix2 e q := ⟨i 0, i 1, eq_ix2 i⟩
  rw [val_main_v41_apply, val_main_v40_apply, val_main_v39_apply]
  show _ * _ = _ * ν (ix2 e 0)
  rw [hν e]
  refine congrArg _ (congrArg _ (funext fun a => Fin.ext ?_))
  match a with
  | ⟨0, _⟩ => rfl

/-- The second layer's messages, against the FIRST layer's weight vector. -/
theorem ref_msg2 (ν : FVec Ideal S3300000x1 .f32) (hν : ∀ e : Fin 3300000, ν (ix2 e 0) = val_main_v30 (F := Ideal) x1 (ix1 e)) :
    val_main_v83 (F := Ideal) x0 x1 x2 x3 x4 = Cert.Gcn.scaleRows 3300000 2 (val_main_v80 (F := Ideal) x0 x1 x2 x3 x4) ν := by
  funext i
  obtain ⟨e, q, rfl⟩ : ∃ (e : Fin 3300000) (q : Fin 2), i = ix2 e q := ⟨i 0, i 1, eq_ix2 i⟩
  rw [val_main_v83_apply, val_main_v82_apply, val_main_v81_apply, norm_twice]
  show _ * _ = _ * ν (ix2 e 0)
  rw [hν e]
  refine congrArg _ (congrArg _ (funext fun a => Fin.ext ?_))
  match a with
  | ⟨0, _⟩ => rfl

/-- The first layer's output: bias and rectifier, the bias given as any row with the bias vector's entries. -/
theorem ref_h1 (β : FVec Ideal S1x16 .f32) (hβ : ∀ q : Fin 16, β (ix2 0 q) = x3 (ix1 q)) :
    val_main_v48 (F := Ideal) x0 x1 x2 x3 = Cert.Gcn.biasRelu 100000 16 (val_main_v44 (F := Ideal) x0 x1 x2) β := by
  funext i
  obtain ⟨p, q, rfl⟩ : ∃ (p : Fin 100000) (q : Fin 16), i = ix2 p q := ⟨i 0, i 1, eq_ix2 i⟩
  rw [val_main_v48_apply, val_main_v47_apply, val_main_v46_apply, val_main_v45_apply, val_main_call1_v0_apply, val_main_call1_cst_apply]
  show max (_ + _) _ = max (_ + β (ix2 0 q)) _
  rw [hβ q]
  refine congrArg (fun t => max (_ + x3 t) _) (funext fun a => Fin.ext ?_)
  match a with
  | ⟨0, _⟩ => rfl

/-! ## The second layer's output: bias, then the shifted logarithm of the softmax along rows of two entries -/

/-- The pattern of −∞ is the bottom: a maximum against it is the other operand. -/
theorem ninf_max (y : EReal) : max (Ideal.ofBits .f32 0xFF800000#32) y = y := by simp [Ideal.ofBits, Ideal.ieee]

/-- The maximum of a row of two entries, folded from −∞. -/
theorem fold_max_two (z : Fin 2 → EReal) :
    (Finset.univ : Finset (Fin 2)).fold max (Ideal.ofBits .f32 0xFF800000#32) z = max (z 0) (z 1) := by
  rw [show (Finset.univ : Finset (Fin 2)) = insert 0 {1} from by decide, Finset.fold_insert (by decide), Finset.fold_singleton,
    max_comm (z 1), ninf_max]

/-- The reduced index p with the column k put back is (p, k). -/
theorem lift_row (h : S100000x2.Reduces [1] S100000) (p : Fin 100000) (k : Fin (S100000x2.size 1)) :
    h.lift (ix1 p) k = ix2 p (⟨k.val, k.isLt⟩ : Fin 2) := by
  funext a; apply Fin.ext
  match a with
  | ⟨0, _⟩ => rfl
  | ⟨1, _⟩ => rfl

/-- The biased row of node p, entry q'. -/
theorem ref_biased (β : FVec Ideal S1x2 .f32) (hβ : ∀ q : Fin 2, β (ix2 0 q) = x5 (ix1 q)) (p : Fin 100000) (q' : Fin 2) :
    val_main_v89 (F := Ideal) x0 x1 x2 x3 x4 x5 (ix2 p q') = val_main_v86 (F := Ideal) x0 x1 x2 x3 x4 (ix2 p q') + β (ix2 0 q') := by
  rw [val_main_v89_apply, val_main_v88_apply, val_main_v87_apply, hβ q']
  refine congrArg (fun t => _ + x5 t) (funext fun a => Fin.ext ?_)
  match a with
  | ⟨0, _⟩ => rfl

set_option maxHeartbeats 400000 in
/-- The host's reduce with a maximum body along a row of two entries, from −∞: the larger entry. -/
theorem ref_rowmax (y : FVec Ideal S100000x2 .f32) (h' : S100000x2.ReducesTo [1] S100000) (hu : 0 < S_.numel) (p : Fin 100000) :
    Host.reduce FloatOps.maximumf y (val_main_call3_cst (F := Ideal)) h' hu (ix1 p)
      = max (y (ix2 p 0)) (y (ix2 p 1)) := by
  have H : S100000x2.Reduces [1] S100000 := by decide
  rw [Host.reduce_eq_fold_single FloatOps.maximumf y _ h' H hu]
  have hrow : (y ∘ H.lift (ix1 p)) = fun k : Fin 2 => y (ix2 p k) := funext fun k => congrArg y (lift_row H p k)
  refine Eq.trans ?_ (fold_max_two fun k : Fin 2 => y (ix2 p k))
  exact congrArg (fun f => Finset.fold max (Ideal.ofBits .f32 0xFF800000#32) f (Finset.univ : Finset (Fin 2))) hrow

set_option maxHeartbeats 400000 in
/-- The row's maximum as the reference takes it: the reduce from −∞, then one more maximum against −∞. -/
theorem ref_mu (β : FVec Ideal S1x2 .f32) (hβ : ∀ q : Fin 2, β (ix2 0 q) = x5 (ix1 q)) (p : Fin 100000) :
    val_main_call3_v2 (F := Ideal) x0 x1 x2 x3 x4 x5 (ix1 p) = max (val_main_v86 (F := Ideal) x0 x1 x2 x3 x4 (ix2 p 0) + β (ix2 0 0)) (val_main_v86 (F := Ideal) x0 x1 x2 x3 x4 (ix2 p 1) + β (ix2 0 1)) := by
  rw [val_main_call3_v2_apply, val_main_call3_v1_apply, val_main_call3_cst_0_apply]
  unfold val_main_call3_v0
  rw [ref_rowmax, ref_biased x0 x1 x2 x3 x4 x5 β hβ p 0, ref_biased x0 x1 x2 x3 x4 x5 β hβ p 1]
  exact ninf_max _

set_option maxHeartbeats 400000 in
/-- The shifted row. -/
theorem ref_shift (β : FVec Ideal S1x2 .f32) (hβ : ∀ q : Fin 2, β (ix2 0 q) = x5 (ix1 q)) (p : Fin 100000) (q' : Fin 2) :
    val_main_call3_v5 (F := Ideal) x0 x1 x2 x3 x4 x5 (ix2 p q') = (val_main_v86 (F := Ideal) x0 x1 x2 x3 x4 (ix2 p q') + β (ix2 0 q')) - max (val_main_v86 (F := Ideal) x0 x1 x2 x3 x4 (ix2 p 0) + β (ix2 0 0)) (val_main_v86 (F := Ideal) x0 x1 x2 x3 x4 (ix2 p 1) + β (ix2 0 1)) := by
  have hidx : idx_main_call3_v3 (idx_main_call3_v4 (ix2 p q')) = ix1 p := funext fun a => Fin.ext (by match a with | ⟨0, _⟩ => rfl)
  rw [val_main_call3_v5_apply, val_main_call3_v4_apply, val_main_call3_v3_apply, hidx, ref_mu x0 x1 x2 x3 x4 x5 β hβ p,
    ref_biased x0 x1 x2 x3 x4 x5 β hβ p q']
  rfl

set_option maxHeartbeats 400000 in
/-- The sum of the shifted row's two exponentials. -/
theorem ref_sum (β : FVec Ideal S1x2 .f32) (hβ : ∀ q : Fin 2, β (ix2 0 q) = x5 (ix1 q)) (p : Fin 100000) :
    val_main_call3_v7 (F := Ideal) x0 x1 x2 x3 x4 x5 (ix1 p)
      = Ideal.exp ((val_main_v86 (F := Ideal) x0 x1 x2 x3 x4 (ix2 p 0) + β (ix2 0 0)) - max (val_main_v86 (F := Ideal) x0 x1 x2 x3 x4 (ix2 p 0) + β (ix2 0 0)) (val_main_v86 (F := Ideal) x0 x1 x2 x3 x4 (ix2 p 1) + β (ix2 0 1))) + Ideal.exp ((val_main_v86 (F := Ideal) x0 x1 x2 x3 x4 (ix2 p 1) + β (ix2 0 1)) - max (val_main_v86 (F := Ideal) x0 x1 x2 x3 x4 (ix2 p 0) + β (ix2 0 0)) (val_main_v86 (F := Ideal) x0 x1 x2 x3 x4 (ix2 p 1) + β (ix2 0 1))) := by
  have hidx : ∀ k : Fin 2, idx_main_call3_v7 (ix1 p) k = ix2 p k := fun k => funext fun a => Fin.ext (by
    match a with
    | ⟨0, _⟩ => rfl
    | ⟨1, _⟩ => rfl)
  rw [val_main_call3_v7_apply, val_main_call3_cst_1_apply, Fin.sum_univ_two, hidx 0, hidx 1, val_main_call3_v6_apply, val_main_call3_v6_apply,
    ref_shift x0 x1 x2 x3 x4 x5 β hβ p 0, ref_shift x0 x1 x2 x3 x4 x5 β hβ p 1]
  simp only [Ideal.ofBits_def, Ideal.hostUnary_exp_def, Ideal.ofBits_zero_f32, zero_add]

set_option maxHeartbeats 400000 in
/-- The second layer's output: bias, then the shifted logarithm of the softmax, the bias given as any row with the bias
    vector's entries. -/
theorem ref_out (β : FVec Ideal S1x2 .f32) (hβ : ∀ q : Fin 2, β (ix2 0 q) = x5 (ix1 q)) :
    val_main_v90 (F := Ideal) x0 x1 x2 x3 x4 x5 = Cert.Gcn.biasLogSoftmax2 100000 (val_main_v86 (F := Ideal) x0 x1 x2 x3 x4) β := by
  funext i
  obtain ⟨p, q, rfl⟩ : ∃ (p : Fin 100000) (q : Fin 2), i = ix2 p q := ⟨i 0, i 1, eq_ix2 i⟩
  have hidx : idx_main_call3_v8 (idx_main_call3_v10 (ix2 p q)) = ix1 p := funext fun a => Fin.ext (by match a with | ⟨0, _⟩ => rfl)
  rw [val_main_v90_apply, ref_shift x0 x1 x2 x3 x4 x5 β hβ p q, val_main_call3_v10_apply, val_main_call3_v9_apply, val_main_call3_v8_apply,
    hidx, ref_sum x0 x1 x2 x3 x4 x5 β hβ p, Cert.Gcn.biasLogSoftmax2_apply]
  simp only [Ideal.subf_def, Ideal.hostUnary_log_def]

end Cert.Gcn.R

end
-- ==== Proof.KernelChain.lean ====
/-
  The kernel program's result, followed from the launch memory to the return.

  Between the launch and the return the program alternates stretches of host operations with six kernel regions.
  A stretch computes each of its buffers as its operations' function of the buffers it reads and leaves every other
  buffer alone; a region leaves its output array at the stage's function of its input arrays as it found them
  (Region0 … Region5) and every other buffer alone. Followed in order, each buffer that matters holds the reference's
  stage of the same name: the two edge lists with the self-loops appended, the edge weights as a column, the dense
  product, the gathered rows, the scaled messages, their sums by target, the rectified layer, and the same again
  down to the logarithm of the softmax. The host operations are the same on both sides, operation for operation;
  only the six stages run as kernels.
-/
import proofs.«125452_j936302870865_1_alg».proof.Proof.KernelKeep
import proofs.«125452_j936302870865_1_alg».proof.Proof.Region0
import proofs.«125452_j936302870865_1_alg».proof.Proof.Region1
import proofs.«125452_j936302870865_1_alg».proof.Proof.Region2
import proofs.«125452_j936302870865_1_alg».proof.Proof.Region3
import proofs.«125452_j936302870865_1_alg».proof.Proof.Region4
import proofs.«125452_j936302870865_1_alg».proof.Proof.Region5
import proofs.«125452_j936302870865_1_alg».proof.Proof.RefStages

set_option maxRecDepth 16384
-- the notations below abbreviate the launch contents of the six arguments; their right-hand sides use a projection
set_option quotPrecheck false

noncomputable section

open Idealize.ShloMosaic Idealize.ShloMosaic.TcCoe Idealize.SL.Sem Idealize.ShloMosaic.ValueIdx

namespace Cert.Gcn.K

open Cert.KernelIdeal Cert.KernelIdeal.Gen
open Cert.ReferenceIdeal.Read

/-! ## The six regions at the ideal values, and the result -/

section Ideal

variable (m : (ℓ : Loc nD τ sig) → Buf (Elt Ideal) ℓ) (ρ : Dev nD → PrngReg) (c : Dev nD)

local notation "a0" => m ((c : Thread nD τ).loc main_arg0)
local notation "a1" => m ((c : Thread nD τ).loc main_arg1)
local notation "a2" => m ((c : Thread nD τ).loc main_arg2)
local notation "a3" => m ((c : Thread nD τ).loc main_arg3)
local notation "a4" => m ((c : Thread nD τ).loc main_arg4)
local notation "a5" => m ((c : Thread nD τ).loc main_arg5)

/-! ### Region by region -/

/-- Region 0: the first dense product. -/
theorem W4_lin1 : W4 m ρ c (Proc.devRef .tc main_v32) = val_main_v31 (F := Ideal) a0 a2 :=
  (W4_arr m ρ c 2).trans ((lin1_array (V3 m ρ) c).trans (by
    rw [show (V3 m ρ c main_arg0 : FVec Ideal S100000x3 .f32) = a0 from W3_arg0 m ρ c,
      show (V3 m ρ c main_arg2 : FVec Ideal S3x16 .f32) = a2 from W3_arg2 m ρ c]
    exact (Cert.Gcn.R.ref_lin1 a0 a2).symm))

/-- Its rows, gathered by source node. -/
theorem W5_rows : W5 m ρ c (Proc.devRef .tc main_v39) = val_main_v38 (F := Ideal) a0 a1 a2 :=
  W5_gather m ρ c (W4_lin1 m ρ c) (row4 m ρ c)

/-- Region 1: the first layer's messages. -/
theorem W6_msg1 : W6 m ρ c (Proc.devRef .tc main_v40) = val_main_v41 (F := Ideal) a0 a1 a2 :=
  (W6_arr m ρ c 2).trans ((msg1_array (V5 m ρ) c).trans (by
    rw [show (V5 m ρ c main_v39 : FVec Ideal S3300000x16 .f32) = val_main_v38 (F := Ideal) a0 a1 a2 from W5_rows m ρ c,
      show (V5 m ρ c main_v31 : FVec Ideal S3300000x1 .f32) = shapeCast S3300000x1 (val_main_v30 (F := Ideal) a1) shapeCasts_S3300000_S3300000x1 from norm5 m ρ c]
    exact (Cert.Gcn.R.ref_msg1 a0 a1 a2 _ (fun e => col_entry _ _ e)).symm))

/-- Their sums by target node, and the bias row. -/
theorem W7_agg1 : W7 m ρ c (Proc.devRef .tc main_v43) = val_main_v44 (F := Ideal) a0 a1 a2 :=
  W7_scatter m ρ c (W6_msg1 m ρ c) (col6 m ρ c)
theorem W7_bias1 : W7 m ρ c (Proc.devRef .tc main_v44) = shapeCast S1x16 a3 shapeCasts_S16_S1x16 :=
  W7_bias m ρ c (b16 m ρ c)

/-- Region 2: bias and rectifier. -/
theorem W8_h1 : W8 m ρ c (Proc.devRef .tc main_v45) = val_main_v48 (F := Ideal) a0 a1 a2 a3 :=
  (W8_arr m ρ c 2).trans ((h1_array (V7 m ρ) c).trans (by
    rw [show (V7 m ρ c main_v43 : FVec Ideal S100000x16 .f32) = val_main_v44 (F := Ideal) a0 a1 a2 from W7_agg1 m ρ c,
      show (V7 m ρ c main_v44 : FVec Ideal S1x16 .f32) = shapeCast S1x16 a3 shapeCasts_S16_S1x16 from W7_bias1 m ρ c]
    exact (Cert.Gcn.R.ref_h1 a0 a1 a2 a3 _ (fun q => row_entry _ _ q)).symm))

/-- Region 3: the second dense product. -/
theorem W9_lin2 : W9 m ρ c (Proc.devRef .tc main_v46) = val_main_v73 (F := Ideal) a0 a1 a2 a3 a4 :=
  (W9_arr m ρ c 2).trans ((lin2_array (V8 m ρ) c).trans (by
    rw [show (V8 m ρ c main_v45 : FVec Ideal S100000x16 .f32) = val_main_v48 (F := Ideal) a0 a1 a2 a3 from W8_h1 m ρ c,
      show (V8 m ρ c main_arg4 : FVec Ideal S16x2 .f32) = a4 from w28 m ρ c]
    exact (Cert.Gcn.R.ref_lin2 a0 a1 a2 a3 a4).symm))

/-- Its rows, gathered by source node. -/
theorem W10_rows : W10 m ρ c (Proc.devRef .tc main_v53) = val_main_v80 (F := Ideal) a0 a1 a2 a3 a4 :=
  W10_gather m ρ c (W9_lin2 m ρ c) (row9 m ρ c)

/-- Region 4: the second layer's messages, by the same edge weights. -/
theorem W11_msg2 : W11 m ρ c (Proc.devRef .tc main_v54) = val_main_v83 (F := Ideal) a0 a1 a2 a3 a4 :=
  (W11_arr m ρ c 2).trans ((msg2_array (V10 m ρ) c).trans (by
    rw [show (V10 m ρ c main_v53 : FVec Ideal S3300000x2 .f32) = val_main_v80 (F := Ideal) a0 a1 a2 a3 a4 from W10_rows m ρ c,
      show (V10 m ρ c main_v31 : FVec Ideal S3300000x1 .f32) = shapeCast S3300000x1 (val_main_v30 (F := Ideal) a1) shapeCasts_S3300000_S3300000x1 from norm10 m ρ c]
    exact (Cert.Gcn.R.ref_msg2 a0 a1 a2 a3 a4 _ (fun e => col_entry _ _ e)).symm))

/-- Their sums by target node, and the bias row. -/
theorem W12_agg2 : W12 m ρ c (Proc.devRef .tc main_v57) = val_main_v86 (F := Ideal) a0 a1 a2 a3 a4 :=
  W12_scatter m ρ c (W11_msg2 m ρ c) (col11 m ρ c)
theorem W12_bias2 : W12 m ρ c (Proc.devRef .tc main_v58) = shapeCast S1x2 a5 shapeCasts_S2_S1x2 :=
  W12_bias m ρ c (b211 m ρ c)

/-- Region 5, and with it the program's result: the reference's last stage of the launch contents of the arguments. -/
theorem kernel_result : W13 m ρ c (Proc.devRef .tc main_v59) = val_main_v90 (F := Ideal) a0 a1 a2 a3 a4 a5 :=
  (W13_arr m ρ c 2).trans ((out_array (V12 m ρ) c).trans (by
    rw [show (V12 m ρ c main_v57 : FVec Ideal S100000x2 .f32) = val_main_v86 (F := Ideal) a0 a1 a2 a3 a4 from W12_agg2 m ρ c,
      show (V12 m ρ c main_v58 : FVec Ideal S1x2 .f32) = shapeCast S1x2 a5 shapeCasts_S2_S1x2 from W12_bias2 m ρ c]
    exact (Cert.Gcn.R.ref_out a0 a1 a2 a3 a4 a5 _ (fun q => row_entry _ _ q)).symm))

end Ideal

end Cert.Gcn.K

end
-- ==== Proof.lean ====
/-
  A two-layer graph convolution, computed by six kernels between stretches of host operations, against the same
  network written with plain array operations: the two programs end with equal results over the extended reals.

  Per layer the network is a dense product x·W, a gather of its rows by the edges' source nodes, each gathered row
  times its edge's weight (the symmetric degree normalisation, a function of the edge list alone), the sum of the
  weighted rows into their target nodes, and a bias; the first layer ends in the rectifier, the second in the
  logarithm of the softmax along rows of two entries, in the shifted form (z − max z) − log ∑ exp (z − max z).
  The kernel program runs the dense products, the weighting, and the two bias stages as kernels over row blocks
  (5000 node rows or 6000 edge rows per grid point) and everything else on the host, by the same operations as the
  reference. At the ideal values a change of float format is the identity, a matrix product into a zero accumulator
  is the host's contraction, a lane maximum or lane sum over two entries is the host's reduce, and a maximum against
  −∞ is the other operand; a column made from the weight vector by a reshape has the entries of the one made by a
  broadcast. So every stage of the kernel program holds the reference's stage of the same name (KernelChain.lean),
  the reference computing its edge weights once per layer by one and the same term. No law used needs the inputs
  finite, so the precondition is never opened.

  The frames of the two kernel programs are the generated ones; the reference's frame is its run with the result
  dropped. The idealization rewrote no operation, so there is nothing to preserve beyond the program's own text.
-/
import proofs.«125452_j936302870865_1_alg».proof.Defs
import proofs.«125452_j936302870865_1_alg».proof.Proof.Gen.Kernel
import proofs.«125452_j936302870865_1_alg».proof.Proof.Gen.Kernel.Frame
import proofs.«125452_j936302870865_1_alg».proof.Proof.Gen.KernelIdeal
import proofs.«125452_j936302870865_1_alg».proof.Proof.Gen.KernelIdeal.Frame
import proofs.«125452_j936302870865_1_alg».proof.Proof.Gen.ReferenceIdeal
import proofs.«125452_j936302870865_1_alg».proof.Proof.Gen.Pre_finite_inputs
import proofs.«125452_j936302870865_1_alg».proof.Proof.KernelLaunch
import proofs.«125452_j936302870865_1_alg».proof.Proof.KernelChain
import proofs.«125452_j936302870865_1_alg».proof.Proof.RefRead
import Idealize.ShloMosaic.Adequacy
import Idealize.ShloMosaic.Init

noncomputable section

namespace Cert.Proof

open Idealize.ShloMosaic Idealize.ShloMosaic.TcCoe Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

/-- The kernel program's run with its result named: on every core the result array holds the network's last stage of the
    launch contents of the arguments, and the arguments are as launched. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v59)
          = Cert.ReferenceIdeal.Read.val_main_v90 (F := Ideal)
              (m ((c.tc : Thread Cert.KernelIdeal.nD Cert.KernelIdeal.τ).loc Cert.KernelIdeal.main_arg0))
              (m ((c.tc : Thread Cert.KernelIdeal.nD Cert.KernelIdeal.τ).loc Cert.KernelIdeal.main_arg1))
              (m ((c.tc : Thread Cert.KernelIdeal.nD Cert.KernelIdeal.τ).loc Cert.KernelIdeal.main_arg2))
              (m ((c.tc : Thread Cert.KernelIdeal.nD Cert.KernelIdeal.τ).loc Cert.KernelIdeal.main_arg3))
              (m ((c.tc : Thread Cert.KernelIdeal.nD Cert.KernelIdeal.τ).loc Cert.KernelIdeal.main_arg4))
              (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono (fun _ h c => ⟨(h c).1.trans (Cert.Gcn.K.kernel_result m ρ c), (h c).2⟩)
    (Cert.KernelIdeal.GenP.run_result (F := Ideal) m ρ)

/-- From memories that agree on the arguments both programs end with the network's last stage of those arguments. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨e0, e1, e2, e3, e4, e5⟩ := hagree c
  rw [Cert.ReferenceIdeal.Read.val_main_v90_eq, e0, e1, e2, e3, e4, e5]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
